-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S2x16384x8 : Shape := ⟨3, ![2, 16384, 8]⟩
abbrev S256x256 : Shape := ⟨2, ![256, 256]⟩
abbrev S256 : Shape := ⟨1, ![256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x16384x8 : S_.BroadcastsInDim S2x16384x8 (![] : Fin 0 → Fin S2x16384x8.rank)
  reducesTo_S2x16384x8_S_d0_1_2 : S2x16384x8.ReducesTo [0, 1, 2] S_

variable [Facts]

def fn_part1 {F : FTy → Type} [FloatOps F] (main_arg1 : IVec S2x16384x8 32) (main_v13 : IVec S_ 1) (main_v15 : IVec S2x16384x8 1) (main_c_5 : IVec S_ 32) : IVec S_ 1 :=
  let main_v16 : IVec S2x16384x8 32 := broadcastInDim S2x16384x8 ![] bcast_S_S2x16384x8 main_c_5
  let main_v17 : IVec S2x16384x8 1 := cmpi .slt main_arg1 main_v16
  let main_v18 : IVec S2x16384x8 1 := andi main_v15 main_v17
  let main_c_6 : IVec S_ 1 := constantI S_ 1 1#1
  let main_v19 : IVec S_ 1 := (fun x v => Host.reduce IntOp.andi x v reducesTo_S2x16384x8_S_d0_1_2 h_S_) main_v18 main_c_6
  let main_v20 : IVec S_ 1 := andi main_v13 main_v19
  main_v20

def fn {F : FTy → Type} [FloatOps F] (main_arg0 : FVec F S8x1024x256 .f32) (main_arg1 : IVec S2x16384x8 32) (main_arg2 : FVec F S256x256 .f32) (main_arg3 : FVec F S256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S2x16384x8 32 := broadcastInDim S2x16384x8 ![] bcast_S_S2x16384x8 main_c_4
  let main_v15 : IVec S2x16384x8 1 := cmpi .sge main_arg1 main_v14
  let main_c_5 : IVec S_ 32 := constantI S_ 32 1024#32
  fn_part1 (F := F) main_arg1 main_v13 main_v15 main_c_5
-- ==== Kernel.lean ====
abbrev S8x1024x256 : Shape := ⟨3, ![8, 1024, 256]⟩
abbrev S2x16384x8 : Shape := ⟨3, ![2, 16384, 8]⟩
abbrev S256x256 : Shape := ⟨2, ![256, 256]⟩
abbrev S256 : Shape := ⟨1, ![256]⟩
abbrev S1x16384x8 : Shape := ⟨3, ![1, 16384, 8]⟩
abbrev S16384x8 : Shape := ⟨2, ![16384, 8]⟩
abbrev S8x16384 : Shape := ⟨2, ![8, 16384]⟩
abbrev S8x1x16384 : Shape := ⟨3, ![8, 1, 16384]⟩
abbrev S1x1x16384 : Shape := ⟨3, ![1, 1, 16384]⟩
abbrev S1x1024x256 : Shape := ⟨3, ![1, 1024, 256]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩
abbrev S1024x256 : Shape := ⟨2, ![1024, 256]⟩
abbrev S1x256 : Shape := ⟨2, ![1, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x1024x256, .f32⟩
  | .hbm, ⟨1, _⟩ => ⟨S2x16384x8, .i32⟩
  | .hbm, ⟨2, _⟩ => ⟨S256x256, .f32⟩
  | .hbm, ⟨3, _⟩ => ⟨S256, .f32⟩
  | .hbm, ⟨4, _⟩ => ⟨S1x16384x8, .i32⟩
  | .hbm, ⟨5, _⟩ => ⟨S16384x8, .i32⟩
  | .hbm, ⟨6, _⟩ => ⟨S8x16384, .i32⟩
  | .hbm, ⟨7, _⟩ => ⟨S8x1x16384, .i32⟩
  | .hbm, ⟨8, _⟩ => ⟨S1x16384x8, .i32⟩
  | .hbm, ⟨9, _⟩ => ⟨S16384x8, .i32⟩
  | .hbm, ⟨10, _⟩ => ⟨S8x16384, .i32⟩
  | .hbm, ⟨11, _⟩ => ⟨S8x1x16384, .i32⟩
  | .hbm, ⟨12, _⟩ => ⟨S8x1024x256, .f32⟩
  | .local _ .vmem, ⟨0, _⟩ => ⟨S1x1x16384, .i32⟩
  | .local _ .vmem, ⟨1, _⟩ => ⟨S1x1x16384, .i32⟩
  | .local _ .vmem, ⟨2, _⟩ => ⟨S1x1x16384, .i32⟩
  | .local _ .vmem, ⟨3, _⟩ => ⟨S1x1x16384, .i32⟩
  | .local _ .vmem, ⟨4, _⟩ => ⟨S1x1024x256, .f32⟩
  | .local _ .vmem, ⟨5, _⟩ => ⟨S1x1024x256, .f32⟩
  | .local _ .vmem, ⟨6, _⟩ => ⟨S256x256, .f32⟩
  | .local _ .vmem, ⟨7, _⟩ => ⟨S256, .f32⟩
  | .local _ .vmem, ⟨8, _⟩ => ⟨S1x1024x256, .f32⟩
  | .local _ .vmem, ⟨9, _⟩ => ⟨S1x1024x256, .f32⟩
  | .local _ .vmem, ⟨10, _⟩ => ⟨S1024x1024, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32_22 : BitVec 32 := 0#32
  let c0_i32 : BitVec 32 := 0#32
  let c1_i32 : BitVec 32 := 1#32
  let arg8 : BitVec 32 := Scf.iv c0_i32 c1_i32 k0_t1
  let c1_i32_21 : BitVec 32 := 1#32
  let v45 : BitVec 32 := Scalar.muli arg8 c1_i32_21
  let v46 : BitVec 32 := Scalar.addi c0_i32_22 v45
  let c1024_i32 : BitVec 32 := 1024#32
  let v47 : BitVec 32 := Scalar.muli v46 c1024_i32
  v47
def k0_off1 (k0_t1 : Fin k0_t1_loop.trips) : Fin 3 → Nat :=
  let c0_23 : Index := 0#32
  let c0_24 : Index := 0#32
  let c0_i32_22 : BitVec 32 := 0#32
  let c0_i32 : BitVec 32 := 0#32
  let c1_i32 : BitVec 32 := 1#32
  let arg8 : BitVec 32 := Scf.iv c0_i32 c1_i32 k0_t1
  let c1_i32_21 : BitVec 32 := 1#32
  let v45 : BitVec 32 := Scalar.muli arg8 c1_i32_21
  let v46 : BitVec 32 := Scalar.addi c0_i32_22 v45
  let c1024_i32 : BitVec 32 := 1024#32
  let v47 : BitVec 32 := Scalar.muli v46 c1024_i32
  let v48 : BitVec 32 := v47
  let v49 : Index := Scalar.indexCast v48
  ![0, 0, v49.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x16384x8_S1x16384x8_0_0_0 : S2x16384x8.Slices ![0, 0, 0] S1x16384x8
  shapeCasts_S1x16384x8_S16384x8 : S1x16384x8.ShapeCasts S16384x8
  transposes_S16384x8_S8x16384_1_0 : S16384x8.Transposes [1, 0] S8x16384
  shapeCasts_S8x16384_S8x1x16384 : S8x16384.ShapeCasts S8x1x16384
  slices_S2x16384x8_S1x16384x8_1_0_0 : S2x16384x8.Slices ![1, 0, 0] S1x16384x8
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x1x1024 : 0 < S1x1x1024.numel
  shapeCasts_S1x1x1024_S1024 : S1x1x1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  bitsLt_bf16_f32 : FTy.bits .bf16 < FTy.bits .f32
  iota_S1024x1024_d0_w32 : S1024x1024.Iotas .tc 32 [0]
  reduces_S1024x1024_S1024 : S1024x1024.Reduces [1] S1024
  transposes_S1024x1_p1_0_S1x1024 : S1024x1.Transposes [1, 0] S1x1024
  broadcasts_S1x1024_S1024x1024 : S1x1024.Broadcasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  dot_S1024x1024_S1024x1024_S1024x1024_0_0_1_1_n_n_wf : DotDims.WF S1024x1024 S1024x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1x1024.size a ≤ S1x1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16384.size a ≤ S8x1x16384.size a
  hwx0_0 : ∀ i : grid0.Coords, EltTy.bits .i32 = 32 ∨ (Rect.block (s := S8x1x16384) S1x1x16384.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S8x1x16384.size a
  hwx0_1 : ∀ i : grid0.Coords, EltTy.bits .i32 = 32 ∨ (Rect.block (s := S8x1x16384) S1x1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x256.size a
  hwx0_2 : ∀ i : grid0.Coords, EltTy.bits .f32 = 32 ∨ (Rect.block (s := S8x1024x256) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S8x1024x256.size a
  hwx0_5 : ∀ i : grid0.Coords, EltTy.bits .f32 = 32 ∨ (Rect.block (s := S8x1024x256) S1x1024x256.size (cc0_transform_5 i) (hinb0_5 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_v3) S1x1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x256 : Shape := ⟨3, ![8, 1024, 256]⟩
abbrev S2x16384x8 : Shape := ⟨3, ![2, 16384, 8]⟩
abbrev S256x256 : Shape := ⟨2, ![256, 256]⟩
abbrev S256 : Shape := ⟨1, ![256]⟩
abbrev S8 : Shape := ⟨1, ![8]⟩
abbrev S_ : Shape := ⟨0, ![]⟩
abbrev S1x16384x8 : Shape := ⟨3, ![1, 16384, 8]⟩
abbrev S16384x8 : Shape := ⟨2, ![16384, 8]⟩
abbrev S1x8 : Shape := ⟨2, ![1, 8]⟩
abbrev S131072 : Shape := ⟨1, ![131072]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩

abbrev nBuf : Space → Nat
  | .hbm => 74
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S2x16384x8, .i32⟩
  | .hbm, ⟨2, _⟩ => ⟨S256x256, .f32⟩
  | .hbm, ⟨3, _⟩ => ⟨S256, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1x16384x8, .i32⟩
  | .hbm, ⟨9, _⟩ => ⟨S16384x8, .i32⟩
  | .hbm, ⟨10, _⟩ => ⟨S1x8, .i32⟩
  | .hbm, ⟨11, _⟩ => ⟨S16384x8, .i32⟩
  | .hbm, ⟨12, _⟩ => ⟨S16384x8, .i32⟩
  | .hbm, ⟨13, _⟩ => ⟨S131072, .i32⟩
  | .hbm, ⟨14, _⟩ => ⟨S1x16384x8, .i32⟩
  | .hbm, ⟨15, _⟩ => ⟨S16384x8, .i32⟩
  | .hbm, ⟨16, _⟩ => ⟨S1x8, .i32⟩
  | .hbm, ⟨17, _⟩ => ⟨S16384x8, .i32⟩
  | .hbm, ⟨18, _⟩ => ⟨S16384x8, .i32⟩
  | .hbm, ⟨19, _⟩ => ⟨S131072, .i32⟩
  | .hbm, ⟨20, _⟩ => ⟨S_, .f32⟩
  | .hbm, ⟨21, _⟩ => ⟨S8192x8192, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S131072x1, .i32⟩
  | .hbm, ⟨38, _⟩ => ⟨S131072x2, .i32⟩
  | .hbm, ⟨39, _⟩ => ⟨S_, .f32⟩
  | .hbm, ⟨40, _⟩ => ⟨S131072, .f32⟩
  | .hbm, ⟨41, _⟩ => ⟨S8192x8192, .f32⟩
  | .hbm, ⟨42, _⟩ => ⟨S8192x8192, .i32⟩
  | .hbm, ⟨43, _⟩ => ⟨S8192x8192, .i32⟩
  | .hbm, ⟨44, _⟩ => ⟨S_, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .i1⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1, .f32⟩
  | .hbm, ⟨61, _⟩ => ⟨S8192x8192, .f32⟩
  | .hbm, ⟨62, _⟩ => ⟨S8192x8192, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x256, .f32⟩
  | .hbm, ⟨67, _⟩ => ⟨S8192x256, .f32⟩
  | .hbm, ⟨68, _⟩ => ⟨S256x256, .f32⟩
  | .hbm, ⟨69, _⟩ => ⟨S8192x256, .f32⟩
  | .hbm, ⟨70, _⟩ => ⟨S1x256, .f32⟩
  | .hbm, ⟨71, _⟩ => ⟨S8192x256, .f32⟩
  | .hbm, ⟨72, _⟩ => ⟨S8192x256, .f32⟩
  | .hbm, ⟨73, _⟩ => ⟨S8x1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  bcast_S_S8 : S_.BroadcastsInDim S8 (![] : Fin 0 → Fin S8.rank)
  slices_S2x16384x8_S1x16384x8_0_0_0 : S2x16384x8.Slices ![0, 0, 0] S1x16384x8
  shapeCasts_S1x16384x8_S16384x8 : S1x16384x8.ShapeCasts S16384x8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  shapeCasts_S16384x8_S131072 : S16384x8.ShapeCasts S131072
  slices_S2x16384x8_S1x16384x8_1_0_0 : S2x16384x8.Slices ![1, 0, 0] S1x16384x8
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  shapeCasts_S8x1024x256_S8192x256 : S8x1024x256.ShapeCasts S8192x256
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x256_S8x1024x256 : S8192x256.ShapeCasts S8x1024x256
  scatter_S8192x8192_S131072x2_S131072_n_01_01_1_wf : ScatterDims.WF S8192x8192 S131072x2 S131072 [] [0, 1] [0, 1] 1
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KRun.lean ====
/-
  What the kernel body leaves in the output block, as a function of the five input blocks.

  The body zeroes the 1024 × 1024 accumulator, adds one chunk's edge counts to it in each of the loop's trips, and
  from the accumulator, the graph's feature block, the weight matrix and the bias row computes the output block.
  Here the accumulator after n trips is the recursion `accN`: trip n adds the counts of the edges
  1024·n … 1024·n + 1023 (`chunk`: the window of 1024 edges at the trip's offset) to what the trips before left;
  and the output block is the linear layer of the aggregation of the accumulator after all the trips
  (`out0_A_5_eq`). Nothing here depends on what a float is.
-/
import proofs.«426153_j27204322853087_1_alg».proof.Proof.Gen.KernelIdeal.Frame
import Idealize.ShloMosaic.Lib.Pipeline.Value

set_option maxRecDepth 16384

noncomputable section

namespace Cert.KernelIdeal.KRun

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a; rfl

/-- The window of 1024 edges trip `k` reads out of a graph's row of 16384 edges. -/
def chunk (x : Vec F S1x1x16384 .i32) (k : Fin k0_t1_loop.trips) : Vec F S1x1x1024 .i32 :=
  View.ld x (Rect.unit (s := S1x1x16384) (k0_off1 k) S1x1x1024.size (k0_off1_inb k))

/-- The accumulator after `n` trips: zero, then each trip's chunk counted onto what the trips before left. -/
def accN (x0 x1 : Vec F S1x1x16384 .i32) : ℕ → Vec F S1024x1024 .f32
  | 0 => k0_pay2
  | n + 1 => if h : n < k0_t1_loop.trips then k0_pay3 (chunk x0 ⟨n, h⟩) (chunk x1 ⟨n, h⟩) (accN x0 x1 n) else accN x0 x1 n

theorem accN_succ (x0 x1 : Vec F S1x1x16384 .i32) (k : Fin k0_t1_loop.trips) :
    accN x0 x1 (k.val + 1) = k0_pay3 (chunk x0 k) (chunk x1 k) (accN x0 x1 k.val) := by
  rw [accN]; exact dif_pos k.isLt

/-- One trip stores, over the whole accumulator, the chunk's counts added to what it finds there. -/
theorem tripL_eq (c : Dev nD) (i : grid0.Coords) (arg1 : Memref sig .tc .vmem S1x1x16384 .i32) (harg1 : arg1.IsWhole) (arg2 : Memref sig .tc .vmem S1x1x16384 .i32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1024x256 .f32) (harg6 : arg6.IsWhole) (arg7 : Memref sig .tc .vmem S1024x1024 .f32) (harg7 : arg7.IsWhole)
    (X1 : BufTy.Contents (Elt F) arg1.view.ty) (X2 : BufTy.Contents (Elt F) arg2.view.ty) (k : Fin k0_t1_loop.trips)
    (f : BufTy.Contents (Elt F) arg7.view.ty) :
    tripL_k0_t1 (F := F) Variants.none c none i arg1 harg1 arg2 harg2 arg3 harg3 arg4 harg4 arg5 harg5 arg6 harg6 arg7 harg7 X1 X2 k f
      = [⟨(Rect.unit (s := S1024x1024) ![0, 0] S1024x1024.size inb_S1024x1024_S1024x1024_0_0),
          k0_pay3
            (View.readAt (Elt F) arg1.view (Rect.unit (s := S1x1x16384) (k0_off1 k) S1x1x1024.size (k0_off1_inb k)).toLoadRect X1)
            (View.readAt (Elt F) arg2.view (Rect.unit (s := S1x1x16384) (k0_off1 k) S1x1x1024.size (k0_off1_inb k)).toLoadRect X2)
            (View.readAt (Elt F) arg7.view (Rect.unit (s := S1024x1024) ![0, 0] S1024x1024.size inb_S1024x1024_S1024x1024_0_0).toLoadRect f)⟩] := by
  show (trip_k0_t1 (F := F) Variants.none c none i arg1 harg1 arg2 harg2 arg3 harg3 arg4 harg4 arg5 harg5 arg6 harg6 arg7 harg7 X1 X2 k).1 f = _
  unfold trip_k0_t1
  dsimp only

/-- The accumulator read back after the zeroing store and `n` trips holds `accN n`: each trip's store covers the whole
    accumulator, so what is read back is the last trip's payload, computed from what the trips before left. -/
theorem acc_read (c : Dev nD) (i : grid0.Coords) (arg1 : Memref sig .tc .vmem S1x1x16384 .i32) (harg1 : arg1.IsWhole) (arg2 : Memref sig .tc .vmem S1x1x16384 .i32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1024x256 .f32) (harg6 : arg6.IsWhole) (arg7 : Memref sig .tc .vmem S1024x1024 .f32) (harg7 : arg7.IsWhole)
    (x0 x1 : Vec F S1x1x16384 .i32) :
    ∀ n : ℕ, n ≤ k0_t1_loop.trips →
      View.readAt (Elt F) arg7.view (Rect.unit (s := S1024x1024) ![0, 0] S1024x1024.size inb_S1024x1024_S1024x1024_0_0).toLoadRect
        (arg7.view.writes (Elt F) arg7.view.junk (pb_k0_t1 (F := F) Variants.none c none i arg1 harg1 arg2 harg2 arg3 harg3 arg4 harg4 arg5 harg5 arg6 harg6 arg7 harg7 (harg1.unread x0) (harg2.unread x1) (arg7.view.writes (Elt F) arg7.view.junk [(⟨(Rect.unit (s := S1024x1024) ![0, 0] S1024x1024.size inb_S1024x1024_S1024x1024_0_0), k0_pay2⟩ : View.Piece (Elt F) S1024x1024 .f32)]) n ++ [(⟨(Rect.unit (s := S1024x1024) ![0, 0] S1024x1024.size inb_S1024x1024_S1024x1024_0_0), k0_pay2⟩ : View.Piece (Elt F) S1024x1024 .f32)]))
        = accN x0 x1 n
  := by
  intro n
  induction n with
  | zero =>
    intro _
    simp only [pb_k0_t1, List.nil_append]
    rw [View.readAt_eq_ld, View.ld_unit_zero (S := S1024x1024) hz2, View.read_writes_junk_eq_canon, View.canon_unit_zero hz2]
    rfl
  | succ n ih =>
    intro hn
    have ih' := ih (Nat.le_of_succ_le hn)
    have hlt : n < k0_t1_loop.trips := hn
    have hs := pb_k0_t1_succ (F := F) Variants.none c none i arg1 harg1 arg2 harg2 arg3 harg3 arg4 harg4 arg5 harg5 arg6 harg6 arg7 harg7 (harg1.unread x0) (harg2.unread x1) (arg7.view.writes (Elt F) arg7.view.junk [(⟨(Rect.unit (s := S1024x1024) ![0, 0] S1024x1024.size inb_S1024x1024_S1024x1024_0_0), k0_pay2⟩ : View.Piece (Elt F) S1024x1024 .f32)]) ⟨n, hlt⟩
    rw [show n + 1 = (⟨n, hlt⟩ : Fin k0_t1_loop.trips).val + 1 from rfl, hs, tripL_eq]
    rw [View.readAt_eq_ld, View.ld_unit_zero (S := S1024x1024) hz2, View.read_writes_junk_eq_canon, List.singleton_append, List.cons_append,
      View.canon_cons_unit_zero hz2, accN_succ]
    have e1 : View.readAt (Elt F) arg1.view (Rect.unit (s := S1x1x16384) (k0_off1 ⟨n, hlt⟩) S1x1x1024.size (k0_off1_inb ⟨n, hlt⟩)).toLoadRect (harg1.unread x0)
        = chunk x0 ⟨n, hlt⟩ := by rw [View.readAt_eq_ld, harg1.read_unread]; rfl
    have e2 : View.readAt (Elt F) arg2.view (Rect.unit (s := S1x1x16384) (k0_off1 ⟨n, hlt⟩) S1x1x1024.size (k0_off1_inb ⟨n, hlt⟩)).toLoadRect (harg2.unread x1)
        = chunk x1 ⟨n, hlt⟩ := by rw [View.readAt_eq_ld, harg2.read_unread]; rfl
    rw [e1, e2, ← View.writes_append, ih']

theorem trips_eq : k0_t1_loop.trips = 16 := by decide

/-- THE OUTPUT BLOCK: the linear layer (`k0_pay1`) of the weight block, the aggregation (`k0_pay4`) of the accumulator after
    all the trips and the feature block, and the bias block. -/
theorem out0_A_5_eq (c : Dev nD) (i : grid0.Coords) (arg1 : Memref sig .tc .vmem S1x1x16384 .i32) (harg1 : arg1.IsWhole) (arg2 : Memref sig .tc .vmem S1x1x16384 .i32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1024x256 .f32) (harg6 : arg6.IsWhole) (arg7 : Memref sig .tc .vmem S1024x1024 .f32) (harg7 : arg7.IsWhole) (x0 : Vec F S1x1x16384 .i32) (x1 : Vec F S1x1x16384 .i32) (x2 : Vec F S1x1024x256 .f32) (x3 : Vec F S256x256 .f32) (x4 : Vec F S256 .f32) :
    out0_A_5 (F := F) c i arg1 harg1 arg2 harg2 arg3 harg3 arg4 harg4 arg5 harg5 arg6 harg6 arg7 harg7 x0 x1 x2 x3 x4 = k0_pay1 x3 (k0_pay4 (accN x0 x1 k0_t1_loop.trips) x2) x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz3]
  have hacc := acc_read c i arg1 harg1 arg2 harg2 arg3 harg3 arg4 harg4 arg5 harg5 arg6 harg6 arg7 harg7 x0 x1 (Scf.trips k0_t1_loop.lb k0_t1_loop.ub k0_t1_loop.st) (le_refl _)
  rw [hacc]
  rw [View.readAt_eq_ld, View.readAt_eq_ld, View.readAt_eq_ld, harg3.read_unread, harg4.read_unread, harg5.read_unread,
    View.ld_unit_zero (S := S256x256) hz2, View.ld_unit_zero (S := S1x1024x256) hz3, View.ld_unit_zero (S := S256) hz1]

end Cert.KernelIdeal.KRun

end
-- ==== Proof.Spec.lean ====
/-
  The mathematics of the graph-convolution layer, free of any program.

  Eight graphs of 1024 nodes each. Graph `b` has 16384 directed edges; edge `k` goes from node `srcN b k` to node
  `dstN b k`, both read off the integer array `e` of shape [2, 16384, 8] (row 0 sources, row 1 destinations).
  The layer is
      A      = [ (i, j) is an edge ] + [ i = j ]                 (adjacency with self loops)
      deg i  = ∑ j, A i j
      d i    = deg i > 0 ? rsqrt (deg i) : 0
      Â i j  = (d i · A i j) · d j                               (symmetric normalisation)
      h i c  = ∑ j, Â i j · x j c
      y i o  = (∑ c, h i c · W o c) + bias o
  over the extended reals. `G` is the whole result array, index by index.

  Two facts join the two programs to it.
  * Counting: the number of edges from i to j, as a sum of products of indicators, is positive exactly when such an
    edge exists (`cnt_pos_iff`).
  * Blocks: a function on the 8192 flat nodes that vanishes outside graph `b`'s 1024 nodes sums to its sum over
    that graph's nodes (`sum_flat_block`); the flat node `1024·b + j` is written `flat b j`.
-/
import Idealize.ShloMosaic.PureOps.Ideal.Laws
import Idealize.ShloMosaic.Lib.ValueIdx
import Mathlib.Algebra.BigOperators.Fin
import Mathlib.Logic.Equiv.Fin.Basic

noncomputable section

namespace GraphConv

open Idealize.ShloMosaic Idealize.ShloMosaic.ValueIdx
open scoped BigOperators

abbrev SX : Shape := ⟨3, ![8, 1024, 256]⟩
abbrev SE : Shape := ⟨3, ![2, 16384, 8]⟩
abbrev SW : Shape := ⟨2, ![256, 256]⟩
abbrev SB : Shape := ⟨1, ![256]⟩

/-- The indicator of a proposition as an extended real. -/
def oneIf (p : Prop) [Decidable p] : EReal := if p then 1 else 0

theorem oneIf_pos {p : Prop} [Decidable p] (h : p) : oneIf p = 1 := if_pos h
theorem oneIf_neg {p : Prop} [Decidable p] (h : ¬p) : oneIf p = 0 := if_neg h

/-- `deg > 0 ? rsqrt deg : 0`, spelt as the select of the comparison both programs compute. -/
def dinvOf (d : EReal) : EReal := Scalar.select (Ideal.cmp .ogt d 0) (Ideal.rsqrt d) 0

section
variable (x : SX.Idx → EReal) (e : SE.Idx → BitVec 32) (W : SW.Idx → EReal) (bias : SB.Idx → EReal)

/-- The source node of edge `k` of graph `b`, as a natural number. -/
def srcN (b : Fin 8) (k : Fin 16384) : ℕ := (e (ix3 (0 : Fin 2) k b)).toNat
/-- The destination node of edge `k` of graph `b`. -/
def dstN (b : Fin 8) (k : Fin 16384) : ℕ := (e (ix3 (1 : Fin 2) k b)).toNat

/-- Graph `b` has an edge from `i` to `j`. -/
def hit (b : Fin 8) (i j : Fin 1024) : Prop := ∃ k : Fin 16384, srcN e b k = i.val ∧ dstN e b k = j.val

/-- The number of edges of graph `b` from `i` to `j`: the sum over the edges of the product of the two indicators. -/
def cnt (b : Fin 8) (i j : Fin 1024) : EReal :=
  ∑ k : Fin 16384, oneIf (srcN e b k = i.val) * oneIf (dstN e b k = j.val)

open Classical in
/-- Adjacency with self loops. -/
def adj (b : Fin 8) (i j : Fin 1024) : EReal := oneIf (hit e b i j) + oneIf (i = j)

/-- The degree of node `i`: its row sum. -/
def deg (b : Fin 8) (i : Fin 1024) : EReal := ∑ j : Fin 1024, adj e b i j

/-- The normalising factor of node `i`. -/
def dinv (b : Fin 8) (i : Fin 1024) : EReal := dinvOf (deg e b i)

/-- The normalised adjacency, associated as both programs multiply it. -/
def adjn (b : Fin 8) (i j : Fin 1024) : EReal := dinv e b i * adj e b i j * dinv e b j

/-- Neighbourhood aggregation. -/
def hid (b : Fin 8) (i : Fin 1024) (c : Fin 256) : EReal := ∑ j : Fin 1024, adjn e b i j * x (ix3 b j c)

/-- The linear layer on the aggregated features. -/
def out (b : Fin 8) (i : Fin 1024) (o : Fin 256) : EReal :=
  (∑ c : Fin 256, hid x e b i c * W (ix2 o c)) + bias (ix1 o)

/-- The result array. -/
def G : SX.Idx → EReal := fun y => out x e W bias (y 0) (y 1) (y 2)

end

/-! ## Counting -/

theorem oneIf_mul_oneIf (p q : Prop) [Decidable p] [Decidable q] : oneIf p * oneIf q = oneIf (p ∧ q) := by
  unfold oneIf
  by_cases hp : p <;> by_cases hq : q <;> simp [hp, hq]

theorem oneIf_nonneg (p : Prop) [Decidable p] : 0 ≤ oneIf p := by
  unfold oneIf; split <;> simp

/-- A finite sum of indicators is positive exactly when one of the propositions holds. -/
theorem sum_oneIf_pos_iff {ι : Type} [Fintype ι] (p : ι → Prop) [DecidablePred p] :
    0 < ∑ k, oneIf (p k) ↔ ∃ k, p k := by
  constructor
  · intro h
    by_contra hne
    have : ∀ k, oneIf (p k) = 0 := fun k => oneIf_neg (fun hk => hne ⟨k, hk⟩)
    simp [this] at h
  · rintro ⟨k, hk⟩
    have h1 : oneIf (p k) ≤ ∑ k, oneIf (p k) :=
      Finset.single_le_sum (fun i _ => oneIf_nonneg (p i)) (Finset.mem_univ k)
    rw [oneIf_pos hk] at h1
    exact lt_of_lt_of_le zero_lt_one h1

/-- The edge count is positive exactly when an edge exists. -/
theorem cnt_pos_iff (e : SE.Idx → BitVec 32) (b : Fin 8) (i j : Fin 1024) : 0 < cnt e b i j ↔ hit e b i j := by
  unfold cnt hit
  simp only [oneIf_mul_oneIf]
  exact sum_oneIf_pos_iff _

/-! ## Blocks of the flat node axis -/

/-- Node `j` of graph `b` on the flat axis of all 8192 nodes. -/
def flat (b : Fin 8) (j : Fin 1024) : Fin 8192 := ⟨1024 * b.val + j.val, by have := b.isLt; have := j.isLt; omega⟩

theorem flat_val (b : Fin 8) (j : Fin 1024) : (flat b j).val = 1024 * b.val + j.val := rfl

/-- The graph of a flat node, and its number inside that graph. -/
def graphOf (J : Fin 8192) : Fin 8 := ⟨J.val / 1024, by have := J.isLt; omega⟩
def nodeOf (J : Fin 8192) : Fin 1024 := ⟨J.val % 1024, Nat.mod_lt _ (by decide)⟩

theorem flat_graphOf_nodeOf (J : Fin 8192) : flat (graphOf J) (nodeOf J) = J := by
  apply Fin.ext; show 1024 * (J.val / 1024) + J.val % 1024 = J.val; omega
theorem graphOf_flat (b : Fin 8) (j : Fin 1024) : graphOf (flat b j) = b := by
  apply Fin.ext; show (1024 * b.val + j.val) / 1024 = b.val; have := j.isLt; omega
theorem nodeOf_flat (b : Fin 8) (j : Fin 1024) : nodeOf (flat b j) = j := by
  apply Fin.ext; show (1024 * b.val + j.val) % 1024 = j.val; have := j.isLt; omega

/-- The flat axis is the product of the graphs and their nodes. -/
def flatEquiv : Fin 8 × Fin 1024 ≃ Fin 8192 where
  toFun p := flat p.1 p.2
  invFun J := (graphOf J, nodeOf J)
  left_inv p := by simp [graphOf_flat, nodeOf_flat]
  right_inv J := flat_graphOf_nodeOf J

/-- A sum over all flat nodes is the double sum over graphs and nodes. -/
theorem sum_flat {M : Type*} [AddCommMonoid M] (f : Fin 8192 → M) :
    ∑ J : Fin 8192, f J = ∑ b : Fin 8, ∑ j : Fin 1024, f (flat b j) := by
  rw [← Equiv.sum_comp flatEquiv f, Fintype.sum_prod_type]; rfl

/-- A function of the flat nodes that vanishes outside graph `b` sums to its sum over that graph. -/
theorem sum_flat_block {M : Type*} [AddCommMonoid M] (f : Fin 8192 → M) (b : Fin 8)
    (h0 : ∀ b' j, b' ≠ b → f (flat b' j) = 0) :
    ∑ J : Fin 8192, f J = ∑ j : Fin 1024, f (flat b j) := by
  rw [sum_flat]
  exact Finset.sum_eq_single b (fun b' _ hb => Finset.sum_eq_zero fun j _ => h0 b' j hb)
    (fun h => absurd (Finset.mem_univ b) h)

end GraphConv

end
-- ==== Proof.LibMatmulT.lean ====
/-
  General lemmas, free of any program.

  A `tpu.matmul` into the zero accumulator whose dimension numbers contract the SAME axis of both operands, read at an
  entry at the ideal values, is the plain sum over the contracted coordinate of the operands' products — no accumulator
  term, no chunk order:
  * both operands contracted on their FIRST axis, a k×m block by a k×n block: entry (a, b) is `∑ c, A(c, a) · B(c, b)`
    (the record `contr00 k m n`; the product of the transposed left operand with the right one);
  * both operands contracted on their LAST axis, an m×k block by an n×k block: entry (a, b) is `∑ c, A(a, c) · B(b, c)`
    (the library's record `DotDims.transposedRhs m k n`; the product with the transposed right operand).
  Each is stated for its record and for any record equal to it (a printed record of the same six lists differs from
  it only in its well-formedness proof).
-/
import Idealize.ShloMosaic.PureOps.Ideal.Laws
import Idealize.ShloMosaic.Lib.ValueIdx

noncomputable section

namespace MatmulT

open Idealize.ShloMosaic Idealize.ShloMosaic.ValueIdx

/-- `<[0], [0], [1], [1], [], []>`: `K×M` by `K×N`, both operands contracted on their first axis. -/
def contr00 (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Entry (a, b) of the product, accumulated into zero, of a k×m by a k×n matrix contracted on their first axes is
    `∑ c, A(c, a) · B(c, b)`. -/
theorem matmul00_zero_apply {K M N : Nat} {φ₁ φ₂ : FTy} (prec : Option ContractPrecision)
    (A : FVec Ideal ⟨2, ![K, M]⟩ φ₁) (B : FVec Ideal ⟨2, ![K, N]⟩ φ₂) (a : Fin M) (b : Fin N) :
    matmul (F := Ideal) (contr00 K M N) prec A B (constant ⟨2, ![M, N]⟩ .f32 0x00000000#32) (ix2 a b)
      = ∑ c : Fin K, A (ix2 c a) * B (ix2 c b) := by
  show FloatOps.matmul _ prec A B _ (ix2 a b) = _
  rw [Ideal.matmul_constant_zero_apply, ← Equiv.sum_comp (contrEquiv1 (contr00 K M N) K rfl rfl).symm]
  refine Finset.sum_congr rfl fun c _ => ?_
  -- the contraction index built from c has c on its one axis
  have hc := contrEquiv1_symm_val (contr00 K M N) K rfl rfl c
  -- the left operand is read at (c, a): axis 0 is the contracted coordinate, axis 1 the output's row
  have hl : (contr00 K M N).lhsIdx (ix2 a b) ((contrEquiv1 _ K rfl rfl).symm c) = ix2 c a := by
    funext ax; apply Fin.ext
    match ax with
    | ⟨0, _⟩ => exact ((contr00 K M N).lhsIdx_val_of_single rfl (ix2 a b) _).trans hc
    | ⟨1, _⟩ => simp [DotDims.lhsIdx, contr00]; rfl
  -- the right operand is read at (c, b): axis 0 is the contracted coordinate, axis 1 the output's column
  have hr : (contr00 K M N).rhsIdx (ix2 a b) ((contrEquiv1 _ K rfl rfl).symm c) = ix2 c b := by
    funext ax; apply Fin.ext
    match ax with
    | ⟨0, _⟩ => exact ((contr00 K M N).rhsIdx_val_of_single rfl (ix2 a b) _).trans hc
    | ⟨1, _⟩ => simp [DotDims.rhsIdx, contr00]; rfl
  rw [hl, hr]

/-- The same for any record that IS `contr00`. -/
theorem matmul00_zero_apply_of_eq {K M N : Nat} {φ₁ φ₂ : FTy} (d : DotDims ⟨2, ![K, M]⟩ ⟨2, ![K, N]⟩ ⟨2, ![M, N]⟩)
    (hd : d = contr00 K M N) (prec : Option ContractPrecision)
    (A : FVec Ideal ⟨2, ![K, M]⟩ φ₁) (B : FVec Ideal ⟨2, ![K, N]⟩ φ₂) (a : Fin M) (b : Fin N) :
    matmul (F := Ideal) d prec A B (constant ⟨2, ![M, N]⟩ .f32 0x00000000#32) (ix2 a b)
      = ∑ c : Fin K, A (ix2 c a) * B (ix2 c b) := by
  subst hd; exact matmul00_zero_apply prec A B a b

/-- Entry (a, b) of the product, accumulated into zero, of an m×k by an n×k matrix contracted on their last axes is
    `∑ c, A(a, c) · B(b, c)`. -/
theorem matmul11_zero_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    matmul (F := Ideal) (DotDims.transposedRhs M K N) prec A B (constant ⟨2, ![M, N]⟩ .f32 0x00000000#32) (ix2 a b)
      = ∑ c : Fin K, A (ix2 a c) * B (ix2 b c) := by
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  -- the contraction index built from c has c on its one axis
  have hc := contrEquiv1_symm_val (DotDims.transposedRhs M K N) K rfl rfl c
  -- the left operand is read at (a, c): axis 0 is the output's row, axis 1 the contracted coordinate
  have hl : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => exact ((DotDims.transposedRhs M K N).lhsIdx_val_of_single rfl (ix2 a b) _).trans hc
  -- the right operand is read at (b, c): axis 0 is the output's column, axis 1 the contracted coordinate
  have hr : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => exact ((DotDims.transposedRhs M K N).rhsIdx_val_of_single rfl (ix2 a b) _).trans hc
  rw [hl, hr]

/-- The same for any record that IS `DotDims.transposedRhs`. -/
theorem matmul11_zero_apply_of_eq {M K N : Nat} {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul (F := Ideal) d prec A B (constant ⟨2, ![M, N]⟩ .f32 0x00000000#32) (ix2 a b)
      = ∑ c : Fin K, A (ix2 a c) * B (ix2 b c) := by
  subst hd; exact matmul11_zero_apply prec A B a b

end MatmulT

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KPay.lean ====
/-
  The kernel body's four payloads read at an index, at the ideal values.

  * `k0_pay2` is the zero matrix the accumulator starts from.
  * `k0_pay3`: one chunk of 1024 edges adds, at (i, j), the number of its edges from i to j — the contraction over
    the chunk's edges of the two one-hot matrices [src r = i] and [dst r = j].
  * `k0_pay4`: from the count matrix, the adjacency with self loops `adjOf`, its row sums, the normalising
    factors, the normalised adjacency, and its product with the graph's feature block.
  * `k0_pay1`: the linear layer, contracting the feature axis of both operands, plus the bias row.
-/
import proofs.«426153_j27204322853087_1_alg».proof.Proof.Gen.KernelIdeal.Skeleton
import proofs.«426153_j27204322853087_1_alg».proof.Proof.Spec
import proofs.«426153_j27204322853087_1_alg».proof.Proof.LibMatmulT
import proofs.«426153_j27204322853087_1_alg».proof.Proof.LibPlainMatmul
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx GraphConv
open scoped BigOperators

/-- The adjacency with self loops the body forms from a count matrix: an edge where the count is positive. -/
def adjOf (cntM : S1024x1024.Idx → EReal) (i j : Fin 1024) : EReal := oneIf (0 < cntM (ix2 i j)) + oneIf (i = j)

/-! ## Layout operations at an index: the column forms

A vector as one column, a column copied along the rows, a vector lifted out of two leading unit axes: each read at an
index written by coordinates, as the row forms are. -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The one-hot entry -/

/-- For a coordinate below 1024, a 32-bit word is that coordinate's word exactly when its value is the coordinate. -/
theorem word_eq_ofNat_iff (w : BitVec 32) (i : Fin 1024) : w = BitVec.ofNat 32 i.val ↔ w.toNat = i.val := by
  have hi := i.isLt
  constructor
  · intro h; rw [h, BitVec.toNat_ofNat]; omega
  · intro h; apply BitVec.eq_of_toNat_eq; rw [BitVec.toNat_ofNat, h]; omega

/-- The bit of "the word is the coordinate", widened to 32 bits and converted, is the indicator of the word's value
    being the coordinate. -/
theorem onehot_word (w : BitVec 32) (i : Fin 1024) :
    FloatOps.sitofp (F := Ideal) .f32 ((IntOp.cmpi .eq w (BitVec.ofNat 32 i.val)).setWidth 32) = oneIf (w.toNat = i.val) := by
  by_cases h : w.toNat = i.val
  · have h1 : IntOp.cmpi .eq w (BitVec.ofNat 32 i.val) = 1#1 := by
      rw [(word_eq_ofNat_iff w i).mpr h]; simp [IntOp.cmpi]
    rw [h1, oneIf_pos h]
    show ((((1#1 : BitVec 1).setWidth 32).toInt : ℝ) : EReal) = 1
    have : ((1#1 : BitVec 1).setWidth 32).toInt = 1 := by decide
    rw [this]; simp
  · have h0 : IntOp.cmpi .eq w (BitVec.ofNat 32 i.val) = 0#1 := by
      have hne : w ≠ BitVec.ofNat 32 i.val := fun e => h ((word_eq_ofNat_iff w i).mp e)
      have hb : (w == BitVec.ofNat 32 i.val) = false := beq_eq_false_iff_ne.mpr hne
      show BitVec.ofBool (w == BitVec.ofNat 32 i.val) = 0#1
      rw [hb]; rfl
    rw [h0, oneIf_neg h]
    show ((((0#1 : BitVec 1).setWidth 32).toInt : ℝ) : EReal) = 0
    have : ((0#1 : BitVec 1).setWidth 32).toInt = 0 := by decide
    rw [this]; simp

/-- One chunk's one-hot matrix at (r, i): the chunk's word r laid down a column, compared with the column number,
    widened, converted and narrowed, is the indicator of word r's value being i. -/
theorem onehot_entry (v : Vec Ideal S1x1x1024 .i32) (h1 : S1x1x1024.ShapeCasts S1024) (h2 : S1024.ShapeCasts S1024x1)
    (h3 : S1024x1.Broadcasts S1024x1024) (h4 : S1024x1024.Iotas .tc 32 [1]) (h5 : 1 < 32) (h6 : FTy.bits .bf16 < FTy.bits .f32)
    (r i : Fin 1024) :
    (truncf .bf16 (sitofp (F := Ideal) .f32 (extui 32 (cmpi .eq (broadcastTo S1024x1024 (shapeCast S1024x1 (shapeCast S1024 v h1) h2) h3)
        (iota .tc S1024x1024 32 [1] h4)) h5)) h6 : FVec Ideal S1024x1024 .bf16) (ix2 r i)
      = oneIf ((v (ix3 (0 : Fin 1) (0 : Fin 1) r)).toNat = i.val) := by
  show FloatOps.sitofp (F := Ideal) .f32 ((IntOp.cmpi .eq
      (broadcastTo S1024x1024 (shapeCast S1024x1 (shapeCast S1024 v h1) h2) h3 (ix2 r i))
      (iota .tc S1024x1024 32 [1] h4 (ix2 r i))).setWidth 32) = _
  rw [broadcastTo_a1_ab_apply, shapeCast_a_a1_apply, shapeCast_11a_a_apply, iota_single_apply]
  exact onehot_word _ i

/-! ## The adjacency, its row sums and the normalising factors -/

/-- The word of 1.0 reads as the extended real 1. -/
theorem ofBits_one_f32 : Ideal.ofBits .f32 0x3F800000#32 = 1 := by
  simp [Ideal.ofBits, Ideal.ieee]
  rw [← EReal.coe_mul]
  norm_num

/-- The select of 1 over 0 on the bit of "x is above zero" is the indicator of that. -/
theorem select_pos (x : EReal) : Scalar.select (Ideal.cmp .ogt x 0) (1 : EReal) 0 = oneIf (0 < x) := by
  by_cases h : 0 < x
  · have hb : Ideal.cmp .ogt x 0 = 1#1 := by
      show BitVec.ofBool (decide (0 < x)) = 1#1
      rw [decide_eq_true h]; rfl
    rw [hb, select_one, oneIf_pos h]
  · have hb : Ideal.cmp .ogt x 0 = 0#1 := by
      show BitVec.ofBool (decide (0 < x)) = 0#1
      rw [decide_eq_false h]; rfl
    rw [hb, select_zero, oneIf_neg h]

/-- The matrix the body forms from the counts, at (r, k): 1 where the count is positive, plus the converted bit of
    "row number is column number" — the adjacency with self loops. -/
theorem adj_entry (v5 : Vec Ideal S1024x1024 .f32) (h0 : S1024x1024.Iotas .tc 32 [0]) (h1 : S1024x1024.Iotas .tc 32 [1])
    (h5 : 1 < 32) (r k : Fin 1024) :
    (addf (select (cmpf .ogt v5 (broadcast S1024x1024 (Scalar.ofBits (F := Ideal) .f32 0x00000000#32)))
          (broadcast S1024x1024 (Scalar.ofBits (F := Ideal) .f32 0x3F800000#32))
          (broadcast S1024x1024 (Scalar.ofBits (F := Ideal) .f32 0x00000000#32)))
        (sitofp (F := Ideal) .f32 (extui 32 (cmpi .eq (iota .tc S1024x1024 32 [0] h0) (iota .tc S1024x1024 32 [1] h1)) h5))
      : FVec Ideal S1024x1024 .f32) (ix2 r k) = adjOf v5 r k := by
  unfold adjOf
  refine (addf_apply _ _ _).trans ?_
  refine congrArg₂ (· + ·) ?_ ?_
  · show Scalar.select (Ideal.cmp .ogt (v5 (ix2 r k)) (Ideal.ofBits .f32 0x00000000#32)) (Ideal.ofBits .f32 0x3F800000#32)
        (Ideal.ofBits .f32 0x00000000#32) = oneIf (0 < v5 (ix2 r k))
    rw [Ideal.ofBits_zero_f32, ofBits_one_f32]
    exact select_pos _
  · show FloatOps.sitofp (F := Ideal) .f32 ((IntOp.cmpi .eq (iota .tc S1024x1024 32 [0] h0 (ix2 r k))
        (iota .tc S1024x1024 32 [1] h1 (ix2 r k))).setWidth 32) = oneIf (r = k)
    rw [iota_single_apply, iota_single_apply]
    refine (onehot_word (BitVec.ofNat 32 r.val) k).trans ?_
    have hr := r.isLt
    have hn : (BitVec.ofNat 32 r.val).toNat = r.val := by rw [BitVec.toNat_ofNat]; omega
    by_cases h : r = k
    · rw [oneIf_pos h, oneIf_pos (by rw [hn, h])]
    · rw [oneIf_neg h, oneIf_neg (fun e => h (Fin.ext (hn.symm.trans e)))]

/-- The lane sum of a 1024 × 1024 matrix from the zero accumulator, at row r, is the sum of the row. -/
theorem rowsum_apply (A : FVec Ideal S1024x1024 .f32) (h1 : S1024x1024.Reduces [1] S1024) (hφ : FKind.Formats .f32)
    (hacc : (0x00000000#32 : BitVec 32) = FKind.add.neutral .f32 hφ) (r : Fin 1024) :
    multiReduction .add [1] S1024 A 0x00000000#32 h1 hφ hacc (ix1 r) = ∑ k : Fin 1024, A (ix2 r k) := by
  refine (Ideal.multiReduction_add_single A _ h1 hφ hacc (ix1 r)).trans ?_
  refine Finset.sum_congr rfl fun k _ => congrArg A ?_
  funext c; apply Fin.ext
  match c with
  | ⟨0, _⟩ => rfl
  | ⟨1, _⟩ => rfl

/-- The column of normalising factors at row r: the select, on "the row sum is above zero", of its reciprocal
    square root over zero. -/
theorem dinv_entry (A : FVec Ideal S1024x1024 .f32) (h1 : S1024x1024.Reduces [1] S1024) (hφ : FKind.Formats .f32)
    (hacc : (0x00000000#32 : BitVec 32) = FKind.add.neutral .f32 hφ) (h2 : S1024.ShapeCasts S1024x1) (r : Fin 1024) (u : Fin 1) :
    (select (cmpf .ogt (shapeCast S1024x1 (multiReduction .add [1] S1024 A 0x00000000#32 h1 hφ hacc) h2)
            (broadcast S1024x1 (Scalar.ofBits (F := Ideal) .f32 0x00000000#32)))
        (rsqrt (shapeCast S1024x1 (multiReduction .add [1] S1024 A 0x00000000#32 h1 hφ hacc) h2))
        (broadcast S1024x1 (Scalar.ofBits (F := Ideal) .f32 0x00000000#32)) : FVec Ideal S1024x1 .f32) (ix2 r u)
      = dinvOf (∑ k : Fin 1024, A (ix2 r k)) := by
  unfold dinvOf
  show Scalar.select (Ideal.cmp .ogt (shapeCast S1024x1 (multiReduction .add [1] S1024 A 0x00000000#32 h1 hφ hacc) h2 (ix2 r u))
        (Ideal.ofBits .f32 0x00000000#32))
      (Ideal.rsqrt (shapeCast S1024x1 (multiReduction .add [1] S1024 A 0x00000000#32 h1 hφ hacc) h2 (ix2 r u)))
      (Ideal.ofBits .f32 0x00000000#32) = _
  rw [Ideal.ofBits_zero_f32, shapeCast_a_a1_apply, rowsum_apply]

/-! ## The four payloads -/

theorem pay2_apply (i j : Fin 1024) : k0_pay2 (F := Ideal) (ix2 i j) = 0 := by
  unfold k0_pay2
  -- a cast to the same shape is the identity; the splat reads its scalar, the word of +0.0
  rw [shapeCast_self]
  exact Ideal.ofBits_zero_f32

theorem pay3_apply (v50 v53 : Vec Ideal S1x1x1024 .i32) (v69 : Vec Ideal S1024x1024 .f32) (i j : Fin 1024) :
    k0_pay3 (F := Ideal) v50 v53 v69 (ix2 i j)
      = v69 (ix2 i j) + ∑ r : Fin 1024,
          oneIf ((v50 (ix3 (0 : Fin 1) (0 : Fin 1) r)).toNat = i.val) * oneIf ((v53 (ix3 (0 : Fin 1) (0 : Fin 1) r)).toNat = j.val) := by
  unfold k0_pay3
  -- the accumulator's entry plus the product of the two one-hot matrices, contracted over the chunk's edges
  rw [shapeCast_self]
  refine (addf_apply _ _ (ix2 i j)).trans ?_
  refine congrArg (v69 (ix2 i j) + ·) ?_
  refine (MatmulT.matmul00_zero_apply_of_eq _ rfl none _ _ i j).trans ?_
  refine Finset.sum_congr rfl fun r _ => ?_
  refine congrArg₂ (· * ·) ?_ ?_
  · exact onehot_entry v50 _ _ _ _ _ _ r i
  · exact onehot_entry v53 _ _ _ _ _ _ r j

theorem pay4_apply (v5 : Vec Ideal S1024x1024 .f32) (v29 : Vec Ideal S1x1024x256 .f32) (i : Fin 1024) (c : Fin 256) :
    k0_pay4 (F := Ideal) v5 v29 (ix2 i c)
      = ∑ j : Fin 1024, (dinvOf (∑ j' : Fin 1024, adjOf v5 i j') * adjOf v5 i j * dinvOf (∑ j' : Fin 1024, adjOf v5 j j'))
          * v29 (ix3 (0 : Fin 1) j c) := by
  unfold k0_pay4
  -- the format change of the result is the identity; under it the plain product of the normalised adjacency and
  -- the feature block
  refine (truncf_apply (ψ := .bf16) (φ := .f32) _ _ _).trans ?_
  refine (PlainMatmul.matmul_zero_apply_of_eq _ rfl none _ _ i c).trans ?_
  refine Finset.sum_congr rfl fun j _ => ?_
  refine congrArg₂ (· * ·) ?_ ?_
  · -- the normalised adjacency at (i, j): (factor of row i · adjacency) · factor of row j
    refine (truncf_apply (ψ := .bf16) (φ := .f32) _ _ _).trans ?_
    refine (mulf_apply _ _ _).trans ?_
    refine congrArg₂ (· * ·) ((mulf_apply _ _ _).trans (congrArg₂ (· * ·) ?_ ?_)) ?_
    · -- the column of factors copied along the rows
      refine (broadcastTo_a1_ab_apply _ _ i j).trans ?_
      refine (dinv_entry _ _ _ _ _ i 0).trans ?_
      exact congrArg dinvOf (Finset.sum_congr rfl fun k _ => adj_entry v5 _ _ _ i k)
    · exact adj_entry v5 _ _ _ i j
    · -- the column of factors transposed to a row and copied down the rows
      refine (broadcastTo_1b_ab_apply _ _ i j).trans ?_
      refine (transpose_ix2_apply _ _ (0 : Fin 1) j).trans ?_
      refine (dinv_entry _ _ _ _ _ j 0).trans ?_
      exact congrArg dinvOf (Finset.sum_congr rfl fun k _ => adj_entry v5 _ _ _ j k)
  · -- the feature block without its leading unit axis
    refine (truncf_apply (ψ := .bf16) (φ := .f32) _ _ _).trans ?_
    exact shapeCast_1ab_ab_apply _ _ j c

theorem pay1_apply (v34 : Vec Ideal S256x256 .f32) (v35 : FVec Ideal S1024x256 .bf16) (v38 : Vec Ideal S256 .f32)
    (i : Fin 1024) (o : Fin 256) :
    k0_pay1 (F := Ideal) v34 v35 v38 (ix3 (0 : Fin 1) i o)
      = (∑ c : Fin 256, v35 (ix2 i c) * v34 (ix2 o c)) + v38 (ix1 o) := by
  unfold k0_pay1
  -- the leading unit axis is added by a cast; under it the sum of the product and the bias row
  refine (shapeCast_ab_1ab_apply _ _ (0 : Fin 1) i o).trans ?_
  refine (addf_apply _ _ (ix2 i o)).trans ?_
  refine congrArg₂ (· + ·) ?_ ?_
  · -- the product contracts the feature axis of both operands; the format change of the weights is the identity
    refine (MatmulT.matmul11_zero_apply_of_eq _ rfl none v35 _ i o).trans ?_
    rfl
  · -- the bias vector as one row, copied down the 1024 rows
    refine (broadcastTo_1b_ab_apply _ _ i o).trans ?_
    exact shapeCast_a_1a_apply _ _ (0 : Fin 1) o

end Cert.KernelIdeal.Pay

end
-- ==== Proof.KBlock.lean ====
/-
  One grid point's output block is the layer of that graph.

  The accumulator after all sixteen trips holds, at (i, j), the number of the graph's 16384 edges from i to j
  (`accN_apply`: the trips' chunks of 1024 edges laid end to end); it is positive exactly where an edge exists, so
  the adjacency the body forms from it is the graph's adjacency with self loops, its row sums the degrees, and the
  body's aggregation and linear layer are the layer's (`block_value`).
-/
import proofs.«426153_j27204322853087_1_alg».proof.Proof.KRun
import proofs.«426153_j27204322853087_1_alg».proof.Proof.KPay
import proofs.«426153_j27204322853087_1_alg».proof.Proof.Spec

noncomputable section

namespace Cert.KernelIdeal.KBlock

open Cert.KernelIdeal Cert.KernelIdeal.Gen Cert.KernelIdeal.KRun Cert.KernelIdeal.Pay Idealize.ShloMosaic Idealize.ShloMosaic.ValueIdx GraphConv
open scoped BigOperators

/-- Trip k's chunk is the window of 1024 edges starting at edge 1024·k: its entry r is the row's entry 1024·k + r. -/
theorem chunk_apply (x : Vec Ideal S1x1x16384 .i32) (k : Fin k0_t1_loop.trips) (r : Fin 1024)
    (h : 1024 * k.val + r.val < 16384) :
    chunk (F := Ideal) x k (ix3 (0 : Fin 1) (0 : Fin 1) r)
      = x (ix3 (0 : Fin 1) (0 : Fin 1) (⟨1024 * k.val + r.val, h⟩ : Fin 16384)) := by
  unfold chunk
  refine congrArg x (funext fun a => Fin.ext ?_)
  show k0_off1 k a + 1 * (ix3 (0 : Fin 1) (0 : Fin 1) r a).val = _
  rw [k0_off1_eq k]
  match a with
  | ⟨0, _⟩ => rfl
  | ⟨1, _⟩ => rfl
  | ⟨2, _⟩ => show 1024 * k.val + 1 * r.val = 1024 * k.val + r.val; omega

/-- The count's summand at edge number e, and zero past the end of the row. -/
def term (x0 x1 : Vec Ideal S1x1x16384 .i32) (i j : Fin 1024) (e : ℕ) : EReal :=
  if h : e < 16384 then
    oneIf ((x0 (ix3 (0 : Fin 1) (0 : Fin 1) (⟨e, h⟩ : Fin 16384))).toNat = i.val)
      * oneIf ((x1 (ix3 (0 : Fin 1) (0 : Fin 1) (⟨e, h⟩ : Fin 16384))).toNat = j.val)
  else 0

/-- After n trips the accumulator counts the edges from i to j among the first 1024·n edges. -/
theorem accN_range (x0 x1 : Vec Ideal S1x1x16384 .i32) (i j : Fin 1024) :
    ∀ n : ℕ, n ≤ 16 → accN (F := Ideal) x0 x1 n (ix2 i j) = ∑ e ∈ Finset.range (1024 * n), term x0 x1 i j e := by
  intro n
  induction n with
  | zero =>
    intro _
    rw [Nat.mul_zero, Finset.range_zero, Finset.sum_empty]
    exact pay2_apply i j
  | succ n ih =>
    intro hn
    have hlt : n < k0_t1_loop.trips := by rw [trips_eq]; omega
    have hs : accN (F := Ideal) x0 x1 (n + 1)
        = k0_pay3 (chunk x0 ⟨n, hlt⟩) (chunk x1 ⟨n, hlt⟩) (accN x0 x1 n) := accN_succ x0 x1 ⟨n, hlt⟩
    have e1 : 1024 * (n + 1) = 1024 * n + 1024 := by omega
    rw [hs, pay3_apply, ih (Nat.le_of_succ_le hn), e1, Finset.sum_range_add]
    refine congrArg (_ + ·) ?_
    rw [← Fin.sum_univ_eq_sum_range (fun r => term x0 x1 i j (1024 * n + r)) 1024]
    refine Finset.sum_congr rfl fun r _ => ?_
    have hr := r.isLt
    have h : 1024 * n + r.val < 16384 := by omega
    unfold term
    rw [dif_pos h, chunk_apply x0 ⟨n, hlt⟩ r h, chunk_apply x1 ⟨n, hlt⟩ r h]

/-- The accumulator after all the trips counts the edges from i to j over the whole row of 16384 edges. -/
theorem accN_apply (x0 x1 : Vec Ideal S1x1x16384 .i32) (i j : Fin 1024) :
    accN (F := Ideal) x0 x1 k0_t1_loop.trips (ix2 i j)
      = ∑ k : Fin 16384, oneIf ((x0 (ix3 (0 : Fin 1) (0 : Fin 1) k)).toNat = i.val) * oneIf ((x1 (ix3 (0 : Fin 1) (0 : Fin 1) k)).toNat = j.val) := by
  have h := accN_range x0 x1 i j 16 (le_refl _)
  have e16 : 1024 * 16 = 16384 := by norm_num
  rw [e16, ← Fin.sum_univ_eq_sum_range (fun e => term x0 x1 i j e) 16384] at h
  rw [trips_eq, h]
  refine Finset.sum_congr rfl fun k _ => ?_
  unfold term
  rw [dif_pos k.isLt]

/-- The indicators of equivalent propositions are equal, however each is decided. -/
theorem oneIf_congr {p q : Prop} (dp : Decidable p) (dq : Decidable q) (h : p ↔ q) : @oneIf p dp = @oneIf q dq := by
  by_cases hp : p
  · rw [oneIf_pos hp, oneIf_pos (h.1 hp)]
  · rw [oneIf_neg hp, oneIf_neg (fun hq => hp (h.2 hq))]

/-- The adjacency the body forms from the final accumulator is the graph's adjacency with self loops: the count is
    positive exactly where an edge exists. -/
theorem adjOf_acc (x0 x1 : Vec Ideal S1x1x16384 .i32) (e : SE.Idx → BitVec 32) (b : Fin 8)
    (h0 : ∀ k : Fin 16384, x0 (ix3 (0 : Fin 1) (0 : Fin 1) k) = e (ix3 (0 : Fin 2) k b))
    (h1 : ∀ k : Fin 16384, x1 (ix3 (0 : Fin 1) (0 : Fin 1) k) = e (ix3 (1 : Fin 2) k b))
    (i j : Fin 1024) :
    adjOf (accN (F := Ideal) x0 x1 k0_t1_loop.trips) i j = adj e b i j := by
  have hc : accN (F := Ideal) x0 x1 k0_t1_loop.trips (ix2 i j) = cnt e b i j := by
    rw [accN_apply]
    unfold cnt srcN dstN
    refine Finset.sum_congr rfl fun k _ => ?_
    rw [h0 k, h1 k]
  unfold adjOf adj
  refine congrArg₂ (· + ·) ?_ ?_
  · refine oneIf_congr _ _ ?_
    rw [hc]
    exact cnt_pos_iff e b i j
  · exact oneIf_congr _ _ Iff.rfl

/-- The output block of the grid point that holds graph `b`'s edge rows and feature block is the layer of graph `b`. -/
theorem block_value (x0 x1 : Vec Ideal S1x1x16384 .i32) (x2 : Vec Ideal S1x1024x256 .f32) (x3 : Vec Ideal S256x256 .f32)
    (x4 : Vec Ideal S256 .f32) (xa : SX.Idx → EReal) (e : SE.Idx → BitVec 32) (b : Fin 8)
    (h0 : ∀ k : Fin 16384, x0 (ix3 (0 : Fin 1) (0 : Fin 1) k) = e (ix3 (0 : Fin 2) k b))
    (h1 : ∀ k : Fin 16384, x1 (ix3 (0 : Fin 1) (0 : Fin 1) k) = e (ix3 (1 : Fin 2) k b))
    (h2 : ∀ (j : Fin 1024) (c : Fin 256), x2 (ix3 (0 : Fin 1) j c) = xa (ix3 b j c))
    (i : Fin 1024) (o : Fin 256) :
    k0_pay1 (F := Ideal) x3 (k0_pay4 (accN x0 x1 k0_t1_loop.trips) x2) x4 (ix3 (0 : Fin 1) i o) = out xa e x3 x4 b i o := by
  refine (pay1_apply x3 _ x4 i o).trans ?_
  unfold out
  refine congrArg (· + x4 (ix1 o)) ?_
  refine Finset.sum_congr rfl fun c _ => ?_
  refine congrArg (· * x3 (ix2 o c)) ?_
  refine (pay4_apply _ x2 i c).trans ?_
  unfold hid
  refine Finset.sum_congr rfl fun j _ => ?_
  rw [h2 j c]
  refine congrArg (· * xa (ix3 b j c)) ?_
  simp only [adjOf_acc x0 x1 e b h0 h1]
  rfl

end Cert.KernelIdeal.KBlock

end
-- ==== Proof.KValue.lean ====
/-
  The kernel program's result array is the layer `GraphConv.G` of its argument arrays.

  Before the region the host lays the edge array out per graph: graph b's source row is row 0 of the edge array read
  down column b, its destination row is row 1 (`V_v3_apply`, `V_v7_apply`). Grid point t stages graph t's two edge
  rows and its feature block, and the whole weight matrix and bias; so what it writes back is block t of `G`
  (`flushed_eq`); the eight blocks tile the result array (`covered`), so the array ends holding `G` (`final`).
-/
import proofs.«426153_j27204322853087_1_alg».proof.Proof.Gen.KernelIdeal.Value
import proofs.«426153_j27204322853087_1_alg».proof.Proof.KRun
import proofs.«426153_j27204322853087_1_alg».proof.Proof.KBlock
import proofs.«426153_j27204322853087_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Value Cert.KernelIdeal.KRun Cert.KernelIdeal.KBlock
open Idealize.ShloMosaic Idealize.ShloMosaic.TcCoe Idealize.ShloMosaic.ValueIdx Idealize.SL.Sem Idealize.ShloMosaic.StableHlo GraphConv
open Idealize.ShloMosaic.Pipeline (Dat)

variable (m : (ℓ : Loc nD τ sig) → Buf (Elt Ideal) ℓ) (ρ : Dev nD → PrngReg)

/-- The four argument arrays as launched, by their literal types. -/
abbrev xA (c : Dev nD) : S8x1024x256.Idx → EReal := m ((c : Thread nD τ).loc main_arg0)
abbrev eA (c : Dev nD) : S2x16384x8.Idx → BitVec 32 := m ((c : Thread nD τ).loc main_arg1)
abbrev wA (c : Dev nD) : S256x256.Idx → EReal := m ((c : Thread nD τ).loc main_arg2)
abbrev bA (c : Dev nD) : S256.Idx → EReal := m ((c : Thread nD τ).loc main_arg3)

/-! ## The host's per-graph edge rows -/

/-- Graph `b`'s source row, entry `k`, is the edge array at (0, k, b). -/
theorem V_v3_apply (c : Dev nD) (b : Fin 8) (k : Fin 16384) :
    (V m c main_v3 : S8x1x16384.Idx → BitVec 32) (ix3 b (0 : Fin 1) k) = eA m c (ix3 (0 : Fin 2) k b) := by
  have e : (V m c main_v3 : S8x1x16384.Idx → BitVec 32) =
      shapeCast S8x1x16384 (transpose S8x16384 [1, 0] (shapeCast S16384x8 (extractStridedSlice S1x16384x8 ![0, 0, 0] (eA m c) slices_S2x16384x8_S1x16384x8_0_0_0) shapeCasts_S1x16384x8_S16384x8) transposes_S16384x8_S8x16384_1_0) shapeCasts_S8x16384_S8x1x16384 := by
    dsimp only [V, hostOps0]; after_results; rfl
  rw [e]
  generalize eA m c = ea
  have hb : b.val < 8 := b.isLt
  have hk : k.val < 16384 := k.isLt
  refine (shapeCast_apply _ shapeCasts_S8x16384_S8x1x16384 (ix3 b (0 : Fin 1) k) (ix2 b k) (by
    rewrite [Shape.rowMajor_val_two, Shape.rowMajor_val_three]
    show b.val * 16384 + k.val = (b.val * 1 + 0) * 16384 + k.val; omega)).trans ?_
  refine (transpose_apply _ _ transposes_S16384x8_S8x16384_1_0 (ix2 b k) (ix2 k b) (fun a => match a with
    | ⟨0, _⟩ => rfl
    | ⟨1, _⟩ => rfl)).trans ?_
  refine (shapeCast_apply _ shapeCasts_S1x16384x8_S16384x8 (ix2 k b) (ix3 (0 : Fin 1) k b) (by
    rewrite [Shape.rowMajor_val_two, Shape.rowMajor_val_three]
    show (0 * 16384 + k.val) * 8 + b.val = k.val * 8 + b.val; omega)).trans ?_
  exact extractStridedSlice_apply _ _ slices_S2x16384x8_S1x16384x8_0_0_0 (ix3 (0 : Fin 1) k b) (ix3 (0 : Fin 2) k b) (fun a => match a with
    | ⟨0, _⟩ => rfl
    | ⟨1, _⟩ => by show k.val = 0 + k.val; omega
    | ⟨2, _⟩ => by show b.val = 0 + b.val; omega)

/-- Graph `b`'s destination row, entry `k`, is the edge array at (1, k, b). -/
theorem V_v7_apply (c : Dev nD) (b : Fin 8) (k : Fin 16384) :
    (V m c main_v7 : S8x1x16384.Idx → BitVec 32) (ix3 b (0 : Fin 1) k) = eA m c (ix3 (1 : Fin 2) k b) := by
  have e : (V m c main_v7 : S8x1x16384.Idx → BitVec 32) =
      shapeCast S8x1x16384 (transpose S8x16384 [1, 0] (shapeCast S16384x8 (extractStridedSlice S1x16384x8 ![1, 0, 0] (eA m c) slices_S2x16384x8_S1x16384x8_1_0_0) shapeCasts_S1x16384x8_S16384x8) transposes_S16384x8_S8x16384_1_0) shapeCasts_S8x16384_S8x1x16384 := by
    dsimp only [V, hostOps0]; after_results; rfl
  rw [e]
  generalize eA m c = ea
  have hb : b.val < 8 := b.isLt
  have hk : k.val < 16384 := k.isLt
  refine (shapeCast_apply _ shapeCasts_S8x16384_S8x1x16384 (ix3 b (0 : Fin 1) k) (ix2 b k) (by
    rewrite [Shape.rowMajor_val_two, Shape.rowMajor_val_three]
    show b.val * 16384 + k.val = (b.val * 1 + 0) * 16384 + k.val; omega)).trans ?_
  refine (transpose_apply _ _ transposes_S16384x8_S8x16384_1_0 (ix2 b k) (ix2 k b) (fun a => match a with
    | ⟨0, _⟩ => rfl
    | ⟨1, _⟩ => rfl)).trans ?_
  refine (shapeCast_apply _ shapeCasts_S1x16384x8_S16384x8 (ix2 k b) (ix3 (0 : Fin 1) k b) (by
    rewrite [Shape.rowMajor_val_two, Shape.rowMajor_val_three]
    show (0 * 16384 + k.val) * 8 + b.val = k.val * 8 + b.val; omega)).trans ?_
  exact extractStridedSlice_apply _ _ slices_S2x16384x8_S1x16384x8_1_0_0 (ix3 (0 : Fin 1) k b) (ix3 (1 : Fin 2) k b) (fun a => match a with
    | ⟨0, _⟩ => rfl
    | ⟨1, _⟩ => by show k.val = 0 + k.val; omega
    | ⟨2, _⟩ => by show b.val = 0 + b.val; omega)

/-! ## The grid's blocks -/

/-- Grid point `t` handles graph `t`. -/
def gb (t : Fin cfg0.N) : Fin 8 := Fin.cast N_0 t

theorem gb_val (t : Fin cfg0.N) : (gb t).val = t.val := rfl

/-- The printed index maps, decided over the eight grid points: the edge rows, the feature block and the output
    block move with the point along the leading axis; the weight matrix and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- The five input blocks of point `t`, by their literal types. -/
abbrev srcB (c : Dev nD) (t : Fin cfg0.N) : Vec Ideal S1x1x16384 .i32 := iblk m c 0 t
abbrev dstB (c : Dev nD) (t : Fin cfg0.N) : Vec Ideal S1x1x16384 .i32 := iblk m c 1 t
abbrev xB (c : Dev nD) (t : Fin cfg0.N) : Vec Ideal S1x1024x256 .f32 := iblk m c 2 t
abbrev wB (c : Dev nD) (t : Fin cfg0.N) : Vec Ideal S256x256 .f32 := iblk m c 3 t
abbrev bB (c : Dev nD) (t : Fin cfg0.N) : Vec Ideal S256 .f32 := iblk m c 4 t

/-- Point `t`'s source row is graph `t`'s: the edge array's row 0 down column `t`. -/
theorem srcB_apply (c : Dev nD) (t : Fin cfg0.N) (k : Fin 16384) :
    srcB m c t (ix3 (0 : Fin 1) (0 : Fin 1) k) = eA m c (ix3 (0 : Fin 2) k (gb t)) := by
  obtain ⟨e0, e1, e2, -⟩ := idx_facts t
  show (V m c main_v3 : S8x1x16384.Idx → BitVec 32) (((cfg0.win 0).blk t).view.emb (ix3 (0 : Fin 1) (0 : Fin 1) k)) = _
  have h : ((cfg0.win 0).blk t).view.emb (ix3 (0 : Fin 1) (0 : Fin 1) k) = ix3 (gb t) (0 : Fin 1) k := by
    funext a; apply Fin.ext
    match a with
    | ⟨0, _⟩ => show win0_0.index t (0 : Fin 3) * 1 + 1 * 0 = t.val; omega
    | ⟨1, _⟩ => show win0_0.index t (1 : Fin 3) * 1 + 1 * 0 = 0; omega
    | ⟨2, _⟩ => show win0_0.index t (2 : Fin 3) * 16384 + 1 * k.val = k.val; omega
  rw [h]; exact V_v3_apply m c (gb t) k

/-- Point `t`'s destination row: the edge array's row 1 down column `t`. -/
theorem dstB_apply (c : Dev nD) (t : Fin cfg0.N) (k : Fin 16384) :
    dstB m c t (ix3 (0 : Fin 1) (0 : Fin 1) k) = eA m c (ix3 (1 : Fin 2) k (gb t)) := by
  obtain ⟨-, -, -, e0, e1, e2, -⟩ := idx_facts t
  show (V m c main_v7 : S8x1x16384.Idx → BitVec 32) (((cfg0.win 1).blk t).view.emb (ix3 (0 : Fin 1) (0 : Fin 1) k)) = _
  have h : ((cfg0.win 1).blk t).view.emb (ix3 (0 : Fin 1) (0 : Fin 1) k) = ix3 (gb t) (0 : Fin 1) k := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 16384 + 1 * k.val = k.val; omega
  rw [h]; exact V_v7_apply m c (gb t) k

/-- Point `t`'s feature block is graph `t`'s slab of the feature array. -/
theorem xB_apply (c : Dev nD) (t : Fin cfg0.N) (j : Fin 1024) (cc : Fin 256) :
    xB m c t (ix3 (0 : Fin 1) j cc) = xA m c (ix3 (gb t) j cc) := by
  obtain ⟨-, -, -, -, -, -, e0, e1, e2, -⟩ := idx_facts t
  show (V m c main_arg0 : S8x1024x256.Idx → EReal) (((cfg0.win 2).blk t).view.emb (ix3 (0 : Fin 1) j cc)) = _
  have h : ((cfg0.win 2).blk t).view.emb (ix3 (0 : Fin 1) j cc) = ix3 (gb t) j cc := by
    funext a; apply Fin.ext
    match a with
    | ⟨0, _⟩ => show win0_2.index t (0 : Fin 3) * 1 + 1 * 0 = t.val; omega
    | ⟨1, _⟩ => show win0_2.index t (1 : Fin 3) * 1024 + 1 * j.val = j.val; omega
    | ⟨2, _⟩ => show win0_2.index t (2 : Fin 3) * 256 + 1 * cc.val = cc.val; omega
  rw [h]; exact congrFun (V_main_arg0 m c) _

/-- Every point stages the whole weight matrix. -/
theorem wB_eq (c : Dev nD) (t : Fin cfg0.N) : wB m c t = wA m c := by
  obtain ⟨-, -, -, -, -, -, -, -, -, e0, e1, -⟩ := idx_facts t
  funext y
  obtain ⟨p, q, rfl⟩ : ∃ (p : Fin 256) (q : Fin 256), y = ix2 p q := ⟨y 0, y 1, eq_ix2 y⟩
  show (V m c main_arg2 : S256x256.Idx → EReal) (((cfg0.win 3).blk t).view.emb (ix2 p q)) = _
  have h : ((cfg0.win 3).blk t).view.emb (ix2 p q) = ix2 p q := by
    funext a; apply Fin.ext
    match a with
    | ⟨0, _⟩ => show win0_3.index t (0 : Fin 2) * 256 + 1 * p.val = p.val; omega
    | ⟨1, _⟩ => show win0_3.index t (1 : Fin 2) * 256 + 1 * q.val = q.val; omega
  rw [h]; exact congrFun (V_main_arg2 m c) _

/-- Every point stages the whole bias. -/
theorem bB_eq (c : Dev nD) (t : Fin cfg0.N) : bB m c t = bA m c := by
  obtain ⟨-, -, -, -, -, -, -, -, -, -, -, e0, -⟩ := idx_facts t
  funext y
  obtain ⟨p, rfl⟩ : ∃ (p : Fin 256), y = ix1 p := ⟨y 0, eq_ix1 y⟩
  show (V m c main_arg3 : S256.Idx → EReal) (((cfg0.win 4).blk t).view.emb (ix1 p)) = _
  have h : ((cfg0.win 4).blk t).view.emb (ix1 p) = ix1 p := by
    funext a; apply Fin.ext
    match a with
    | ⟨0, _⟩ => show win0_4.index t (0 : Fin 1) * 256 + 1 * p.val = p.val; omega
  rw [h]; exact congrFun (V_main_arg3 m c) _

/-! ## What each point writes back, and the whole array -/

/-- WHAT POINT `t` WRITES BACK is block `t` of the layer of the argument arrays. -/
theorem flushed_eq (c : Dev nD) (t : Fin cfg0.N) :
    (dats m 0 c).flushed 5 t = ((cfg0.win 5).blk t).view.read (Elt Ideal) (G (xA m c) (eA m c) (wA m c) (bA m c)) := by
  rw [flushed5_A, out0_A_5_eq]
  obtain ⟨-, -, -, -, -, -, -, -, -, -, -, -, e0, e1, e2⟩ := idx_facts t
  funext y
  obtain ⟨z, i, o, rfl⟩ : ∃ (z : Fin 1) (i : Fin 1024) (o : Fin 256), y = ix3 z i o := ⟨y 0, y 1, y 2, eq_ix3 y⟩
  obtain rfl : z = 0 := Subsingleton.elim _ _
  show k0_pay1 (F := Ideal) (wB m c t) (k0_pay4 (accN (srcB m c t) (dstB m c t) k0_t1_loop.trips) (xB m c t)) (bB m c t) (ix3 (0 : Fin 1) i o)
    = G (xA m c) (eA m c) (wA m c) (bA m c) (((cfg0.win 5).blk t).view.emb (ix3 (0 : Fin 1) i o))
  have h : ((cfg0.win 5).blk t).view.emb (ix3 (0 : Fin 1) i o) = ix3 (gb t) i o := by
    funext a; apply Fin.ext
    match a with
    | ⟨0, _⟩ => show win0_5.index t (0 : Fin 3) * 1 + 1 * 0 = t.val; omega
    | ⟨1, _⟩ => show win0_5.index t (1 : Fin 3) * 1024 + 1 * i.val = i.val; omega
    | ⟨2, _⟩ => show win0_5.index t (2 : Fin 3) * 256 + 1 * o.val = o.val; omega
  rw [h, block_value (srcB m c t) (dstB m c t) (xB m c t) (wB m c t) (bB m c t) (xA m c) (eA m c) (gb t)
    (srcB_apply m c t) (dstB_apply m c t) (xB_apply m c t) i o, wB_eq, bB_eq]
  rfl

/-- An index of the result array is in point `t`'s block iff each coordinate is in the block's range on its axis. -/
theorem mem_blk (t : Fin cfg0.N) (i : S8x1024x256.Idx) :
    i ∈ ((cfg0.win 5).blk t).view.set ↔ ∀ a : Fin 3, win0_5.index t a * S1x1024x256.size a ≤ (i a).val ∧ (i a).val < win0_5.index t a * S1x1024x256.size a + S1x1024x256.size a := by
  show i ∈ ((View.whole main_v8).slice (win0_5.rect t)).set ↔ _
  rw [View.set_slice_whole, Rect.mem_set_unit]
  exact Iff.rfl

/-- The eight blocks tile the result array: index (b, i, o) lies in point b's block. -/
theorem covered (i : S8x1024x256.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 256 := (i 2).isLt
  let t : Fin cfg0.N := Fin.cast N_0.symm ⟨(i 0).val, hi0⟩
  have ht : t.val = (i 0).val := rfl
  obtain ⟨-, -, -, -, -, -, -, -, -, -, -, -, e0, e1, e2⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 256 ≤ (i 2).val ∧ (i 2).val < win0_5.index t (2 : Fin 3) * 256 + 256; omega

/-- THE RESULT ARRAY after the run is the layer of the argument arrays. -/
theorem final (c : Dev nD) : (dats m 0 c).arrAt 5 cfg0.N = G (xA m c) (eA m c) (wA m c) (bA m c) :=
  (dats m 0 c).arrAt_eq_of_cover 5 (G (xA m c) (eA m c) (wA m c) (bA m c)) (fun t _ => flushed_eq m c t) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v8) = G (xA m c) (eA m c) (wA m c) (bA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.LibScatterSet.lean ====
/-
  A scatter that writes one constant into a constant array.

  `Host.scatter` walks the update indices in row-major order; an update whose result index lies inside the operand
  overwrites that one element with the combiner's value, an update whose result index falls outside is dropped.
  When the operand is a constant array `z`, every update is the same constant `c` and the combiner returns the
  update, the order of the walk and repeated result indices do not matter: an element is `c` when at least one
  update lands on it and `z` otherwise.
-/
import Idealize.ShloMosaic.PureOps.ShapeOps

namespace Idealize.ShloMosaic

/-- A fold over a list whose step at `n` overwrites the place `g n` (when there is one) with the constant `c` and
    changes nothing else, read at a place `i`: the result is `c` when some member of the list is sent to `i`, and the
    starting value at `i` otherwise. The step is given by its two defining equations, so that any spelling of it fits. -/
theorem List.foldl_overwrite_const_apply {ι κ α : Type} [DecidableEq κ] (g : ι → Option κ) (c : α)
    (step : (κ → α) → ι → κ → α)
    (hsome : ∀ r n k, g n = some k → step r n = fun i' => if i' = k then c else r i')
    (hnone : ∀ r n, g n = none → step r n = r)
    (i : κ) (l : List ι) (r : κ → α) :
    ((∃ n, n ∈ l ∧ g n = some i) → l.foldl step r i = c) ∧ ((¬ ∃ n, n ∈ l ∧ g n = some i) → l.foldl step r i = r i) := by
  induction l generalizing r with
  | nil =>
    refine ⟨?_, fun _ => rfl⟩
    rintro ⟨n, hn, _⟩
    exact absurd hn List.not_mem_nil
  | cons n l ih =>
    rw [List.foldl_cons]
    by_cases hl : ∃ m, m ∈ l ∧ g m = some i
    · refine ⟨fun _ => (ih _).1 hl, fun hno => absurd ?_ hno⟩
      obtain ⟨m, hm, hg⟩ := hl
      exact ⟨m, List.mem_cons_of_mem _ hm, hg⟩
    · have hstay := (ih (step r n)).2 hl
      constructor
      · rintro ⟨m, hm, hgm⟩
        rcases List.mem_cons.1 hm with rfl | hm
        · rw [hstay, hsome r m i hgm]
          exact if_pos rfl
        · exact absurd ⟨m, hm, hgm⟩ hl
      · intro hno
        rw [hstay]
        cases hg : g n with
        | none => rw [hnone r n hg]
        | some k =>
          rw [hsome r n k hg]
          have hik : i ≠ k := fun hik => hno ⟨n, List.mem_cons_self, by rw [hg, hik]⟩
          exact if_neg hik

/-- A scatter of the constant `c` into the constant array `z`, with the combiner that returns the update, read at an
    index `i`: the element is `c` when some update index has `i` as its result index, and `z` otherwise. Repeated result
    indices are harmless, every update writing the same value; no condition on the dimension numbers is needed. -/
theorem Host.scatter_const_apply {s si u : Shape} {α : Type} {w : Nat} (d : ScatterDims s si u) (z c : α)
    (idx : IVec si w) (i : s.Idx) [Decidable (∃ j, d.resultIdx? j idx = some i)] :
    Host.scatter d (fun _ b => b) (fun _ => z) idx (fun _ => c) i
      = if ∃ j, d.resultIdx? j idx = some i then c else z := by
  have hiff : (∃ n, n ∈ List.finRange u.numel ∧ d.resultIdx? (u.rowMajor.symm n) idx = some i)
      ↔ ∃ j, d.resultIdx? j idx = some i := by
    constructor
    · rintro ⟨n, _, hn⟩; exact ⟨_, hn⟩
    · rintro ⟨j, hj⟩
      exact ⟨u.rowMajor j, List.mem_finRange _, by rw [Equiv.symm_apply_apply]; exact hj⟩
  unfold Host.scatter
  by_cases hj : ∃ j, d.resultIdx? j idx = some i
  · rw [if_pos hj]
    refine (List.foldl_overwrite_const_apply (fun n : Fin u.numel => d.resultIdx? (u.rowMajor.symm n) idx) c _
      ?_ ?_ i (List.finRange u.numel) (fun _ => z)).1 (hiff.2 hj)
    · intro r n k h; simp only [h]
    · intro r n h; simp only [h]
  · rw [if_neg hj]
    refine (List.foldl_overwrite_const_apply (fun n : Fin u.numel => d.resultIdx? (u.rowMajor.symm n) idx) c _
      ?_ ?_ i (List.finRange u.numel) (fun _ => z)).2 (fun h' => hj (hiff.1 h'))
    · intro r n k h; simp only [h]
    · intro r n h; simp only [h]

end Idealize.ShloMosaic
-- ==== Proof.RefAdj.lean ====
/-
  The reference's adjacency on the flat node axis.

  The reference offsets graph b's node numbers by 1024·b, scatters the constant 1 at every (source, destination)
  pair into an 8192 × 8192 matrix of zeros, and adds the identity. With every node number below 1024 no offset sum
  wraps or goes negative, every pair lands inside its own graph's diagonal block, and repeated pairs write the same
  value: the entry at (flat b i, flat b' j) is the graph's adjacency with self loops when b = b', and 0 otherwise.
-/
import proofs.«426153_j27204322853087_1_alg».proof.Proof.RefRead
import proofs.«426153_j27204322853087_1_alg».proof.Proof.Spec
import proofs.«426153_j27204322853087_1_alg».proof.Proof.LibScatterSet
import Idealize.ShloMosaic.Lib.Pipeline.Value
import Idealize.ShloMosaic.Lib.ValueIdx
import Idealize.ShloMosaic.Lib.IdealHost

noncomputable section

namespace Cert.ReferenceIdeal.Adj

open Cert.ReferenceIdeal Cert.ReferenceIdeal.Gen Cert.ReferenceIdeal.ReadP Idealize.ShloMosaic Idealize.ShloMosaic.ValueIdx GraphConv
open scoped BigOperators

/-- The indicator of a true proposition is 1, whichever decision procedure it is written with. -/
theorem oneIf_eq_one {p : Prop} {d : Decidable p} (h : p) : @oneIf p d = 1 := if_pos h
/-- The indicator of a false proposition is 0, whichever decision procedure it is written with. -/
theorem oneIf_eq_zero {p : Prop} {d : Decidable p} (h : ¬p) : @oneIf p d = 0 := if_neg h

/-! ## Where one update of this scatter lands

The scatter's index array has one row per update and two columns; both operand axes are inserted window axes, so
the window is a single element and the result index of update `n` is the pair of the two words of row `n`, read
signed, when both lie in [0, 8192). -/

/-- The place in the index array where update `n` reads component `c` of its start index: row `n`, column `c`. -/
theorem siIdx0 (n : Fin 131072) (c : Fin 2) (hc : c.val < scatter_S8192x8192_S131072x2_S131072_n_01_01_1.scatterDimsToOperandDims.length) :
    scatter_S8192x8192_S131072x2_S131072_n_01_01_1.siIdx (ix1 n) ⟨c.val, hc⟩ = ix2 n c := by
  funext b
  match b with
  | ⟨0, _⟩ =>
    unfold ScatterDims.siIdx
    split
    · next hb => exact (Nat.zero_ne_one hb).elim
    · apply Fin.ext; rfl
  | ⟨1, _⟩ =>
    unfold ScatterDims.siIdx
    split
    · apply Fin.ext; rfl
    · next hb => exact absurd (rfl : (1 : ℕ) = 1) hb

/-- The window of update `n` starts, on the first operand axis, at the signed word in column 0 of row `n`. -/
theorem start0 (n : Fin 131072) (idx : IVec S131072x2 32) :
    scatter_S8192x8192_S131072x2_S131072_n_01_01_1.start (ix1 n) idx 0 = (idx (ix2 n 0)).toInt := by
  unfold ScatterDims.start
  rw [dif_pos (by decide)]
  exact congrArg (fun q => (idx q).toInt) (siIdx0 n 0 _)

/-- On the second operand axis it starts at the signed word in column 1 of row `n`. -/
theorem start1 (n : Fin 131072) (idx : IVec S131072x2 32) :
    scatter_S8192x8192_S131072x2_S131072_n_01_01_1.start (ix1 n) idx 1 = (idx (ix2 n 1)).toInt := by
  unfold ScatterDims.start
  rw [dif_pos (by decide)]
  exact congrArg (fun q => (idx q).toInt) (siIdx0 n 1 _)

/-- Both operand axes are inserted window axes: the window coordinate is 0 on each. -/
theorem window0 (j : S131072.Idx) (a : Fin S8192x8192.rank) :
    scatter_S8192x8192_S131072x2_S131072_n_01_01_1.window j a = 0 := by
  unfold ScatterDims.window
  rw [dif_neg]
  revert a; decide

/-- Update `n` lands on the entry (I, J) exactly when the two signed words of row `n` are I and J. -/
theorem resultIdx_iff (n : Fin 131072) (idx : IVec S131072x2 32) (I J : Fin 8192) :
    scatter_S8192x8192_S131072x2_S131072_n_01_01_1.resultIdx? (ix1 n) idx = some (ix2 I J)
      ↔ (idx (ix2 n (0 : Fin 2))).toInt = (I.val : ℤ) ∧ (idx (ix2 n (1 : Fin 2))).toInt = (J.val : ℤ) := by
  have h0 : scatter_S8192x8192_S131072x2_S131072_n_01_01_1.start (ix1 n) idx 0
      + (scatter_S8192x8192_S131072x2_S131072_n_01_01_1.window (ix1 n) 0 : ℤ) = (idx (ix2 n (0 : Fin 2))).toInt := by
    rw [start0, window0]; simp
  have h1 : scatter_S8192x8192_S131072x2_S131072_n_01_01_1.start (ix1 n) idx 1
      + (scatter_S8192x8192_S131072x2_S131072_n_01_01_1.window (ix1 n) 1 : ℤ) = (idx (ix2 n (1 : Fin 2))).toInt := by
    rw [start1, window0]; simp
  unfold ScatterDims.resultIdx?
  split
  · next h =>
    constructor
    · intro he
      have he' := Option.some.inj he
      have e0 : (scatter_S8192x8192_S131072x2_S131072_n_01_01_1.start (ix1 n) idx 0
          + (scatter_S8192x8192_S131072x2_S131072_n_01_01_1.window (ix1 n) 0 : ℤ)).toNat = I.val :=
        congrArg (fun f => (f 0).val) he'
      have e1 : (scatter_S8192x8192_S131072x2_S131072_n_01_01_1.start (ix1 n) idx 1
          + (scatter_S8192x8192_S131072x2_S131072_n_01_01_1.window (ix1 n) 1 : ℤ)).toNat = J.val :=
        congrArg (fun f => (f 1).val) he'
      have p0 := (h 0).1
      have p1 := (h 1).1
      rw [h0] at e0 p0
      rw [h1] at e1 p1
      constructor <;> omega
    · rintro ⟨ha, hb⟩
      refine congrArg some (funext fun a => ?_)
      match a with
      | ⟨0, _⟩ =>
        refine Fin.ext ?_
        show (scatter_S8192x8192_S131072x2_S131072_n_01_01_1.start (ix1 n) idx 0
          + (scatter_S8192x8192_S131072x2_S131072_n_01_01_1.window (ix1 n) 0 : ℤ)).toNat = I.val
        rw [h0, ha]; exact Int.toNat_natCast _
      | ⟨1, _⟩ =>
        refine Fin.ext ?_
        show (scatter_S8192x8192_S131072x2_S131072_n_01_01_1.start (ix1 n) idx 1
          + (scatter_S8192x8192_S131072x2_S131072_n_01_01_1.window (ix1 n) 1 : ℤ)).toNat = J.val
        rw [h1, hb]; exact Int.toNat_natCast _
  · next h =>
    constructor
    · intro he; cases he
    · rintro ⟨ha, hb⟩
      exfalso
      apply h
      intro a
      match a with
      | ⟨0, _⟩ =>
        show 0 ≤ scatter_S8192x8192_S131072x2_S131072_n_01_01_1.start (ix1 n) idx 0
            + (scatter_S8192x8192_S131072x2_S131072_n_01_01_1.window (ix1 n) 0 : ℤ)
          ∧ scatter_S8192x8192_S131072x2_S131072_n_01_01_1.start (ix1 n) idx 0
            + (scatter_S8192x8192_S131072x2_S131072_n_01_01_1.window (ix1 n) 0 : ℤ) < ((8192 : ℕ) : ℤ)
        rw [h0, ha]; have := I.isLt; constructor <;> omega
      | ⟨1, _⟩ =>
        show 0 ≤ scatter_S8192x8192_S131072x2_S131072_n_01_01_1.start (ix1 n) idx 1
            + (scatter_S8192x8192_S131072x2_S131072_n_01_01_1.window (ix1 n) 1 : ℤ)
          ∧ scatter_S8192x8192_S131072x2_S131072_n_01_01_1.start (ix1 n) idx 1
            + (scatter_S8192x8192_S131072x2_S131072_n_01_01_1.window (ix1 n) 1 : ℤ) < ((8192 : ℕ) : ℤ)
        rw [h1, hb]; have := J.isLt; constructor <;> omega

/-- Edge `k` of graph `b` on the flat edge axis: position `8·k + b`. -/
def epos (k : Fin 16384) (b : Fin 8) : Fin 131072 := ⟨8 * k.val + b.val, by have := k.isLt; have := b.isLt; omega⟩

/-- Every flat edge position is `8·k + b` for an edge `k` and a graph `b`. -/
theorem exists_epos (n : Fin 131072) : ∃ k b, n = epos k b :=
  ⟨⟨n.val / 8, by have := n.isLt; omega⟩, ⟨n.val % 8, Nat.mod_lt _ (by decide)⟩,
    Fin.ext (by show n.val = 8 * (n.val / 8) + n.val % 8; omega)⟩

/-- A node number below 1024 plus the offset 1024·b of graph `b`, as 32-bit words: the sum does not wrap. -/
theorem off_toNat (w : BitVec 32) (b : Fin 8) (hw : w.toNat < 1024) :
    (IntOp.addi w (IntOp.muli (BitVec.ofNat 32 b.val) 1024#32)).toNat = w.toNat + 1024 * b.val := by
  unfold IntOp.addi IntOp.muli
  rw [BitVec.toNat_add, BitVec.toNat_mul, BitVec.toNat_ofNat, BitVec.toNat_ofNat]
  have := b.isLt
  omega

/-- The wrap of a negative index (add 8192 when the word is signed-negative) leaves a word below 2³¹ alone. -/
theorem wrap_keep (w : BitVec 32) (h : w.toNat < 2147483648) :
    Scalar.select (IntOp.cmpi .slt w 0#32) (IntOp.addi w 8192#32) w = w := by
  have hi : w.toInt = (w.toNat : ℤ) := BitVec.toInt_eq_toNat_of_lt (by omega)
  have hs : w.slt 0#32 = false := by
    unfold BitVec.slt
    rw [hi, BitVec.toInt_zero]
    exact decide_eq_false (by omega)
  have hc : IntOp.cmpi .slt w 0#32 = 0#1 := by
    unfold IntOp.cmpi
    simp only [hs]; rfl
  rw [hc, select_zero]

/-! ## The two index columns -/

section
variable (x1 : (⟨S2x16384x8, .i32⟩ : BufTy).Contents (Elt Ideal))

/-- The offset source column before flattening: entry (k, b) is the source of edge `k` of graph `b` plus 1024·b. -/
theorem v7_at (k : Fin 16384) (b : Fin 8) :
    val_main_v7 (F := Ideal) x1 (ix2 k b) = IntOp.addi (x1 (ix3 (0 : Fin 2) k b)) (IntOp.muli (BitVec.ofNat 32 b.val) 1024#32) := by
  rw [val_main_v7_apply, val_main_v4_apply, val_main_v3_apply, val_main_v6_apply, val_main_v5_apply, val_main_v2_apply,
    val_main_v0_apply, val_main_v1_apply, val_main_c_apply]
  have e1 : idx_main_v3 (idx_main_v4 (ix2 k b)) = ix3 (0 : Fin 2) k b := by
    funext a
    match a with
    | ⟨0, _⟩ => rfl
    | ⟨1, _⟩ => exact Fin.ext (by show (k.val * 8 + b.val) / 8 % 16384 = k.val; have := k.isLt; have := b.isLt; omega)
    | ⟨2, _⟩ => exact Fin.ext (by show (k.val * 8 + b.val) % 8 = b.val; have := b.isLt; omega)
  rw [e1]

/-- The same after flattening, at position `8·k + b`. -/
theorem v8_at (k : Fin 16384) (b : Fin 8) :
    val_main_v8 (F := Ideal) x1 (ix1 (epos k b)) = IntOp.addi (x1 (ix3 (0 : Fin 2) k b)) (IntOp.muli (BitVec.ofNat 32 b.val) 1024#32) := by
  rw [val_main_v8_apply]
  have e : idx_main_v8 (ix1 (epos k b)) = ix2 k b := by
    funext a
    match a with
    | ⟨0, _⟩ => exact Fin.ext (by show (8 * k.val + b.val) / 8 = k.val; have := b.isLt; omega)
    | ⟨1, _⟩ => exact Fin.ext (by show (8 * k.val + b.val) % 8 = b.val; have := b.isLt; omega)
  rw [e, v7_at]

/-- The negative-index wrap is never taken on the source column. -/
theorem v20_at (hr : ∀ y, (x1 y).toNat < 1024) (k : Fin 16384) (b : Fin 8) :
    val_main_v20 (F := Ideal) x1 (ix1 (epos k b)) = IntOp.addi (x1 (ix3 (0 : Fin 2) k b)) (IntOp.muli (BitVec.ofNat 32 b.val) 1024#32) := by
  rw [val_main_v20_apply, val_main_v17_apply, val_main_v19_apply, val_main_v16_apply, val_main_c_0_apply, val_main_v18_apply,
    val_main_c_1_apply, v8_at]
  refine wrap_keep _ ?_
  rw [off_toNat _ _ (hr _)]
  have := hr (ix3 (0 : Fin 2) k b); have := b.isLt
  omega

/-- Column 0 of the index array is the (wrapped) source column. -/
theorem v28_col0 (n : Fin 131072) : val_main_v28 (F := Ideal) x1 (ix2 n (0 : Fin 2)) = val_main_v20 (F := Ideal) x1 (ix1 n) := by
  unfold val_main_v28
  refine (concatenate_pair_apply_left (1 : Fin S131072x2.rank) (val_main_v26 (F := Ideal) x1) (val_main_v27 (F := Ideal) x1)
    concatenates_S131072x1_S131072x1_S131072x2_d1 (ix2 n (0 : Fin 2)) rfl (ix2 n (0 : Fin 1))
    (fun b => match b with | ⟨0, _⟩ => rfl | ⟨1, _⟩ => rfl)).trans ?_
  rw [val_main_v26_apply]
  exact congrArg _ (funext fun a => match a with | ⟨0, _⟩ => rfl)

/-- Column 1 of the index array is the (wrapped) destination column. -/
theorem v28_col1 (n : Fin 131072) : val_main_v28 (F := Ideal) x1 (ix2 n (1 : Fin 2)) = val_main_v25 (F := Ideal) x1 (ix1 n) := by
  unfold val_main_v28
  refine (concatenate_pair_apply_right (1 : Fin S131072x2.rank) (val_main_v26 (F := Ideal) x1) (val_main_v27 (F := Ideal) x1)
    concatenates_S131072x1_S131072x1_S131072x2_d1 (ix2 n (1 : Fin 2)) rfl rfl (ix2 n (0 : Fin 1))
    (fun b => match b with | ⟨0, _⟩ => fun _ => rfl | ⟨1, _⟩ => fun h => absurd rfl h) rfl).trans ?_
  rw [val_main_v27_apply]
  exact congrArg _ (funext fun a => match a with | ⟨0, _⟩ => rfl)

/-- The offset destination column before flattening: entry (k, b) is the destination of edge `k` of graph `b` plus 1024·b. -/
theorem v13_at (k : Fin 16384) (b : Fin 8) :
    val_main_v13 (F := Ideal) x1 (ix2 k b) = IntOp.addi (x1 (ix3 (1 : Fin 2) k b)) (IntOp.muli (BitVec.ofNat 32 b.val) 1024#32) := by
  rw [val_main_v13_apply, val_main_v10_apply, val_main_v9_apply, val_main_v12_apply, val_main_v11_apply, val_main_v2_apply,
    val_main_v0_apply, val_main_v1_apply, val_main_c_apply]
  have e1 : idx_main_v9 (idx_main_v10 (ix2 k b)) = ix3 (1 : Fin 2) k b := by
    funext a
    match a with
    | ⟨0, _⟩ => rfl
    | ⟨1, _⟩ => exact Fin.ext (by show (k.val * 8 + b.val) / 8 % 16384 = k.val; have := k.isLt; have := b.isLt; omega)
    | ⟨2, _⟩ => exact Fin.ext (by show (k.val * 8 + b.val) % 8 = b.val; have := b.isLt; omega)
  rw [e1]

/-- The same after flattening, at position `8·k + b`. -/
theorem v14_at (k : Fin 16384) (b : Fin 8) :
    val_main_v14 (F := Ideal) x1 (ix1 (epos k b)) = IntOp.addi (x1 (ix3 (1 : Fin 2) k b)) (IntOp.muli (BitVec.ofNat 32 b.val) 1024#32) := by
  rw [val_main_v14_apply]
  have e : idx_main_v14 (ix1 (epos k b)) = ix2 k b := by
    funext a
    match a with
    | ⟨0, _⟩ => exact Fin.ext (by show (8 * k.val + b.val) / 8 = k.val; have := b.isLt; omega)
    | ⟨1, _⟩ => exact Fin.ext (by show (8 * k.val + b.val) % 8 = b.val; have := b.isLt; omega)
  rw [e, v13_at]

/-- The negative-index wrap is never taken on the destination column. -/
theorem v25_at (hr : ∀ y, (x1 y).toNat < 1024) (k : Fin 16384) (b : Fin 8) :
    val_main_v25 (F := Ideal) x1 (ix1 (epos k b)) = IntOp.addi (x1 (ix3 (1 : Fin 2) k b)) (IntOp.muli (BitVec.ofNat 32 b.val) 1024#32) := by
  rw [val_main_v25_apply, val_main_v22_apply, val_main_v24_apply, val_main_v21_apply, val_main_c_2_apply, val_main_v23_apply,
    val_main_c_3_apply, v14_at]
  refine wrap_keep _ ?_
  rw [off_toNat _ _ (hr _)]
  have := hr (ix3 (1 : Fin 2) k b); have := b.isLt
  omega

/-- The offset word read signed is the natural number it looks like. -/
theorem off_toInt (w : BitVec 32) (b : Fin 8) (hw : w.toNat < 1024) :
    (IntOp.addi w (IntOp.muli (BitVec.ofNat 32 b.val) 1024#32)).toInt = ((w.toNat + 1024 * b.val : ℕ) : ℤ) := by
  have h := off_toNat w b hw
  rw [BitVec.toInt_eq_toNat_of_lt (by rw [h]; have := b.isLt; omega), h]

/-! ## The scattered matrix -/

/-- Some update lands on (I, J) exactly when some edge `k` of some graph `b` has offset source I and offset destination J. -/
theorem lands_iff (hr : ∀ y, (x1 y).toNat < 1024) (I J : Fin 8192) :
    (∃ j, scatter_S8192x8192_S131072x2_S131072_n_01_01_1.resultIdx? j (val_main_v28 (F := Ideal) x1) = some (ix2 I J))
      ↔ ∃ (k : Fin 16384) (b : Fin 8), srcN x1 b k + 1024 * b.val = I.val ∧ dstN x1 b k + 1024 * b.val = J.val := by
  constructor
  · rintro ⟨j, hj⟩
    obtain ⟨k, b, hn⟩ := exists_epos (j 0)
    have hj' : j = ix1 (epos k b) := (eq_ix1 j).trans (congrArg (fun m : Fin 131072 => ix1 m) hn)
    subst hj'
    rw [resultIdx_iff, v28_col0, v28_col1, v20_at x1 hr, v25_at x1 hr, off_toInt _ _ (hr _),
      off_toInt _ _ (hr _)] at hj
    exact ⟨k, b, by exact_mod_cast hj.1, by exact_mod_cast hj.2⟩
  · rintro ⟨k, b, ha, hb⟩
    refine ⟨ix1 (epos k b), ?_⟩
    rw [resultIdx_iff, v28_col0, v28_col1, v20_at x1 hr, v25_at x1 hr, off_toInt _ _ (hr _), off_toInt _ _ (hr _)]
    exact ⟨by exact_mod_cast ha, by exact_mod_cast hb⟩

open Classical in
/-- The scattered matrix: 1 where some offset edge lands, 0 elsewhere. -/
theorem v30_apply (hr : ∀ y, (x1 y).toNat < 1024) (I J : Fin 8192) :
    val_main_v30 (F := Ideal) x1 (ix2 I J)
      = oneIf (∃ (k : Fin 16384) (b : Fin 8), srcN x1 b k + 1024 * b.val = I.val ∧ dstN x1 b k + 1024 * b.val = J.val) := by
  have h15 : val_main_v15 (F := Ideal) = fun _ => (0 : EReal) := funext fun i => by
    rw [val_main_v15_apply, val_main_cst_apply]; exact Ideal.ofBits_zero_f32
  have h29 : val_main_v29 (F := Ideal) = fun _ => (1 : EReal) := funext fun i => by
    rw [val_main_v29_apply, val_main_cst_4_apply]; exact Ideal.ofBits_one_f32
  unfold val_main_v30
  rw [h15, h29, Host.scatter_const_apply]
  by_cases h : ∃ (k : Fin 16384) (b : Fin 8), srcN x1 b k + 1024 * b.val = I.val ∧ dstN x1 b k + 1024 * b.val = J.val
  · rw [oneIf_eq_one h, if_pos ((lands_iff x1 hr I J).2 h)]
  · rw [oneIf_eq_zero h, if_neg (fun h' => h ((lands_iff x1 hr I J).1 h'))]

/-- Inside one graph's diagonal block the offset edges are the graph's edges; across two graphs there are none. -/
theorem block_iff (hr : ∀ y, (x1 y).toNat < 1024) (b b' : Fin 8) (i j : Fin 1024) :
    (∃ (k : Fin 16384) (c : Fin 8), srcN x1 c k + 1024 * c.val = (flat b i).val ∧ dstN x1 c k + 1024 * c.val = (flat b' j).val)
      ↔ b = b' ∧ hit x1 b i j := by
  constructor
  · rintro ⟨k, c, ha, hb⟩
    have hs : srcN x1 c k < 1024 := hr _
    have hd : dstN x1 c k < 1024 := hr _
    rw [flat_val] at ha hb
    have hi := i.isLt
    have hj := j.isLt
    have hcb : c = b := Fin.ext (by omega)
    have hcb' : c = b' := Fin.ext (by omega)
    subst hcb
    exact ⟨hcb', k, by omega, by omega⟩
  · rintro ⟨rfl, k, hs, hd⟩
    exact ⟨k, b, by rw [flat_val]; omega, by rw [flat_val]; omega⟩

end

/-! ## The identity matrix -/

/-- Two row/column numbers below 8192 are equal as 32-bit words exactly when they are equal. -/
theorem cmpi_eq_ofNat (I J : Fin 8192) :
    IntOp.cmpi .eq (IntOp.addi (BitVec.ofNat 32 I.val) 0#32) (BitVec.ofNat 32 J.val) = if I = J then 1#1 else 0#1 := by
  unfold IntOp.cmpi IntOp.addi
  rw [BitVec.add_zero]
  by_cases h : I = J
  · subst h; rw [if_pos rfl]; simp
  · rw [if_neg h]
    have hne : BitVec.ofNat 32 I.val ≠ BitVec.ofNat 32 J.val := by
      intro he
      have ht := congrArg BitVec.toNat he
      rw [BitVec.toNat_ofNat, BitVec.toNat_ofNat] at ht
      apply h; apply Fin.ext
      have := I.isLt; have := J.isLt; omega
    rw [beq_eq_false_iff_ne.2 hne]; rfl

/-- The identity matrix the reference adds: the indicator of the diagonal. -/
theorem v36_apply (I J : Fin 8192) : val_main_v36 (F := Ideal) (ix2 I J) = oneIf (I = J) := by
  rw [val_main_v36_apply, val_main_v35_apply, val_main_v34_apply, val_main_v31_apply, val_main_v33_apply,
    val_main_c_5_apply, val_main_v32_apply]
  refine (congrArg (FloatOps.uitofp (F := Ideal) .f32) (cmpi_eq_ofNat I J)).trans ?_
  by_cases h : I = J
  · rw [if_pos h, oneIf_eq_one h]
    show (((1#1 : BitVec 1).toNat : ℝ) : EReal) = 1
    simp
  · rw [if_neg h, oneIf_eq_zero h]
    show (((0#1 : BitVec 1).toNat : ℝ) : EReal) = 0
    simp

/-! ## The adjacency with self loops -/

theorem v37_flat (x1 : (⟨S2x16384x8, .i32⟩ : BufTy).Contents (Elt Ideal)) (hr : ∀ y, (x1 y).toNat < 1024)
    (b b' : Fin 8) (i j : Fin 1024) :
    val_main_v37 (F := Ideal) x1 (ix2 (flat b i) (flat b' j)) = if b = b' then adj x1 b i j else 0 := by
  rw [val_main_v37_apply]
  show val_main_v30 (F := Ideal) x1 (ix2 (flat b i) (flat b' j)) + val_main_v36 (F := Ideal) (ix2 (flat b i) (flat b' j)) = _
  rw [v30_apply x1 hr, v36_apply]
  by_cases hb : b = b'
  · subst hb
    rw [if_pos rfl]
    unfold adj
    have hflat : flat b i = flat b j ↔ i = j := by
      constructor
      · intro h; have := congrArg nodeOf h; rwa [nodeOf_flat, nodeOf_flat] at this
      · intro h; rw [h]
    congr 1
    · by_cases hh : hit x1 b i j
      · rw [oneIf_eq_one hh, oneIf_eq_one ((block_iff x1 hr b b i j).2 ⟨rfl, hh⟩)]
      · rw [oneIf_eq_zero hh, oneIf_eq_zero (fun h' => hh ((block_iff x1 hr b b i j).1 h').2)]
    · by_cases hij : i = j
      · rw [oneIf_eq_one hij, oneIf_eq_one (hflat.2 hij)]
      · rw [oneIf_eq_zero hij, oneIf_eq_zero (fun h' => hij (hflat.1 h'))]
  · rw [if_neg hb]
    have h1 : ¬ ∃ (k : Fin 16384) (c : Fin 8), srcN x1 c k + 1024 * c.val = (flat b i).val ∧ dstN x1 c k + 1024 * c.val = (flat b' j).val :=
      fun h' => hb ((block_iff x1 hr b b' i j).1 h').1
    have h2 : ¬ flat b i = flat b' j := by
      intro h; have := congrArg graphOf h; rw [graphOf_flat, graphOf_flat] at this; exact hb this
    rw [oneIf_eq_zero h1, oneIf_eq_zero h2, add_zero]

end Cert.ReferenceIdeal.Adj

end
-- ==== Proof.RefValue.lean ====
/-
  The reference's result is the layer `GraphConv.G` of its arguments.

  On the flat node axis the adjacency is block diagonal (`Adj.v37_flat`), so a row's sum over all 8192 columns is its
  sum over its own graph's 1024 columns, the normalised adjacency vanishes outside the diagonal blocks (a product with
  a zero factor is zero on the extended reals, whatever the other factors), and the aggregation over all 8192 flat
  nodes is the aggregation over the graph's own nodes. The linear layer and the bias are read entry by entry.
-/
import proofs.«426153_j27204322853087_1_alg».proof.Proof.RefAdj

noncomputable section

namespace Cert.ReferenceIdeal.RefG

open Cert.ReferenceIdeal Cert.ReferenceIdeal.Gen Cert.ReferenceIdeal.ReadP Idealize.ShloMosaic Idealize.ShloMosaic.ValueIdx GraphConv
open scoped BigOperators

section
variable (x0 : (⟨S8x1024x256, .f32⟩ : BufTy).Contents (Elt Ideal)) (x1 : (⟨S2x16384x8, .i32⟩ : BufTy).Contents (Elt Ideal))
  (x2 : (⟨S256x256, .f32⟩ : BufTy).Contents (Elt Ideal)) (x3 : (⟨S256, .f32⟩ : BufTy).Contents (Elt Ideal))

/-- The degree: the row sum over all 8192 flat columns is the sum over the row's own graph, where the entry is the
    graph's adjacency; outside that graph the entries are zero. -/
theorem v38_flat (hr : ∀ y, (x1 y).toNat < 1024) (b : Fin 8) (i : Fin 1024) :
    val_main_v38 (F := Ideal) x1 (ix1 (flat b i)) = deg x1 b i := by
  refine (val_main_v38_apply x1 (ix1 (flat b i))).trans ?_
  rw [val_main_cst_6_apply]
  show Ideal.ofBits .f32 0x00000000#32 + _ = _
  rw [Ideal.ofBits_zero_f32, zero_add]
  have hidx : ∀ k : Fin 8192, idx_main_v38 (ix1 (flat b i)) k = ix2 (flat b i) k := fun k =>
    funext fun a => by match a with | ⟨0, _⟩ => rfl | ⟨1, _⟩ => rfl
  refine (Finset.sum_congr rfl fun k _ => congrArg (val_main_v37 (F := Ideal) x1) (hidx k)).trans ?_
  refine (sum_flat_block (fun k => val_main_v37 (F := Ideal) x1 (ix2 (flat b i) k)) b
    (fun b' j hb => by rw [Adj.v37_flat x1 hr b b' i j, if_neg (Ne.symm hb)])).trans ?_
  unfold deg
  refine Finset.sum_congr rfl fun j _ => ?_
  rw [Adj.v37_flat x1 hr b b i j, if_pos rfl]

/-- The normalising factor: the select of the comparison with zero between the reciprocal square root and zero. -/
theorem v42_flat (hr : ∀ y, (x1 y).toNat < 1024) (b : Fin 8) (i : Fin 1024) :
    val_main_v42 (F := Ideal) x1 (ix1 (flat b i)) = dinv x1 b i := by
  rw [val_main_v42_apply, val_main_v40_apply, val_main_v41_apply, val_main_v39_apply, val_main_cst_7_apply,
    val_main_call0_v1_apply, val_main_call0_v0_apply, val_main_cst_8_apply, v38_flat x1 hr b i]
  show Scalar.select (Ideal.cmp .ogt (deg x1 b i) (Ideal.ofBits .f32 0x00000000#32)) (Ideal.rsqrt (deg x1 b i))
    (Ideal.ofBits .f32 0x00000000#32) = _
  rw [Ideal.ofBits_zero_f32]
  rfl

/-- The factor broadcast along a row is the factor of the row. -/
theorem v44_at (I J : Fin 8192) :
    val_main_v44 (F := Ideal) x1 (ix2 I J) = val_main_v42 (F := Ideal) x1 (ix1 I) := by
  rw [val_main_v44_apply, val_main_v43_apply]
  exact congrArg (val_main_v42 (F := Ideal) x1) (funext fun a => by match a with | ⟨0, _⟩ => rfl)

/-- The factor broadcast along a column is the factor of the column. -/
theorem v47_at (I J : Fin 8192) :
    val_main_v47 (F := Ideal) x1 (ix2 I J) = val_main_v42 (F := Ideal) x1 (ix1 J) := by
  rw [val_main_v47_apply, val_main_v46_apply]
  exact congrArg (val_main_v42 (F := Ideal) x1) (funext fun a => by match a with | ⟨0, _⟩ => rfl)

/-- The normalised adjacency is block diagonal: off the diagonal blocks the middle factor is zero. -/
theorem v48_flat (hr : ∀ y, (x1 y).toNat < 1024) (b b' : Fin 8) (i j : Fin 1024) :
    val_main_v48 (F := Ideal) x1 (ix2 (flat b i) (flat b' j)) = if b = b' then adjn x1 b i j else 0 := by
  rw [val_main_v48_apply, val_main_v45_apply, v44_at, v47_at, v42_flat x1 hr, v42_flat x1 hr, Adj.v37_flat x1 hr]
  show dinv x1 b i * (if b = b' then adj x1 b i j else 0) * dinv x1 b' j = _
  by_cases h : b = b'
  · subst h
    rw [if_pos rfl, if_pos rfl]
    rfl
  · rw [if_neg h, if_neg h, mul_zero, zero_mul]

/-- The features on the flat node axis: row 1024·b + j is node j of graph b. -/
theorem v49_flat (b : Fin 8) (j : Fin 1024) (c : Fin 256) :
    val_main_v49 (F := Ideal) x0 (ix2 (flat b j) c) = x0 (ix3 b j c) := by
  rw [val_main_v49_apply]
  refine congrArg x0 (funext fun a => Fin.ext ?_)
  have hb := b.isLt
  have hj := j.isLt
  have hc := c.isLt
  match a with
  | ⟨0, _⟩ => show ((1024 * b.val + j.val) * 256 + c.val) / 262144 = b.val; omega
  | ⟨1, _⟩ => show ((1024 * b.val + j.val) * 256 + c.val) / 256 % 1024 = j.val; omega
  | ⟨2, _⟩ => show ((1024 * b.val + j.val) * 256 + c.val) % 256 = c.val; omega

/-- The aggregation over all 8192 flat nodes is the aggregation over the row's own graph. -/
theorem v50_flat (hr : ∀ y, (x1 y).toNat < 1024) (b : Fin 8) (i : Fin 1024) (c : Fin 256) :
    val_main_v50 (F := Ideal) x0 x1 (ix2 (flat b i) c) = hid x0 x1 b i c := by
  refine (val_main_v50_apply x0 x1 (ix2 (flat b i) c)).trans ?_
  have hl : ∀ k : Fin 8192, lidx_main_v50 (ix2 (flat b i) c) k = ix2 (flat b i) k := fun k =>
    funext fun a => by match a with | ⟨0, _⟩ => rfl | ⟨1, _⟩ => rfl
  have hrr : ∀ k : Fin 8192, ridx_main_v50 (ix2 (flat b i) c) k = ix2 k c := fun k =>
    funext fun a => by match a with | ⟨0, _⟩ => rfl | ⟨1, _⟩ => rfl
  refine (Finset.sum_congr rfl fun k _ => by rw [hl k, hrr k]).trans ?_
  refine (sum_flat_block
    (fun k => val_main_v48 (F := Ideal) x1 (ix2 (flat b i) k) * val_main_v49 (F := Ideal) x0 (ix2 k c)) b
    (fun b' j hb => by rw [v48_flat x1 hr b b' i j, if_neg (Ne.symm hb), zero_mul])).trans ?_
  unfold hid
  refine Finset.sum_congr rfl fun j _ => ?_
  rw [v48_flat x1 hr b b i j, if_pos rfl, v49_flat]

/-- The linear layer, entry by entry: the weight is read transposed. -/
theorem v52_flat (hr : ∀ y, (x1 y).toNat < 1024) (b : Fin 8) (i : Fin 1024) (o : Fin 256) :
    val_main_v52 (F := Ideal) x0 x1 x2 (ix2 (flat b i) o) = ∑ c : Fin 256, hid x0 x1 b i c * x2 (ix2 o c) := by
  refine (val_main_v52_apply x0 x1 x2 (ix2 (flat b i) o)).trans ?_
  refine Finset.sum_congr rfl fun c _ => ?_
  have hl : lidx_main_v52 (ix2 (flat b i) o) c = ix2 (flat b i) c :=
    funext fun a => by match a with | ⟨0, _⟩ => rfl | ⟨1, _⟩ => rfl
  have hx : idx_main_v51 (ridx_main_v52 (ix2 (flat b i) o) c) = ix2 o c :=
    funext fun a => by match a with | ⟨0, _⟩ => rfl | ⟨1, _⟩ => rfl
  rw [hl, v50_flat x0 x1 hr, val_main_v51_apply, hx]

/-- The bias broadcast over the rows. -/
theorem v54_at (I : Fin 8192) (o : Fin 256) : val_main_v54 (F := Ideal) x3 (ix2 I o) = x3 (ix1 o) := by
  rw [val_main_v54_apply, val_main_v53_apply]
  exact congrArg x3 (funext fun a => by match a with | ⟨0, _⟩ => rfl)

end

theorem val_eq_G (x0 : (⟨S8x1024x256, .f32⟩ : BufTy).Contents (Elt Ideal)) (x1 : (⟨S2x16384x8, .i32⟩ : BufTy).Contents (Elt Ideal))
    (x2 : (⟨S256x256, .f32⟩ : BufTy).Contents (Elt Ideal)) (x3 : (⟨S256, .f32⟩ : BufTy).Contents (Elt Ideal))
    (hr : ∀ y, (x1 y).toNat < 1024) :
    val_main_v56 (F := Ideal) x0 x1 x2 x3 = G x0 x1 x2 x3 := by
  funext y
  obtain ⟨b, i, o, rfl⟩ : ∃ (b : Fin 8) (i : Fin 1024) (o : Fin 256), y = ix3 b i o := ⟨y 0, y 1, y 2, eq_ix3 y⟩
  have h56 : idx_main_v56 (ix3 b i o) = ix2 (flat b i) o := by
    funext a
    apply Fin.ext
    have hb := b.isLt
    have hi := i.isLt
    have ho := o.isLt
    match a with
    | ⟨0, _⟩ => show ((b.val * 1024 + i.val) * 256 + o.val) / 256 = 1024 * b.val + i.val; omega
    | ⟨1, _⟩ => show ((b.val * 1024 + i.val) * 256 + o.val) % 256 = o.val; omega
  rw [val_main_v56_apply, h56, val_main_v55_apply, v52_flat x0 x1 x2 hr, v54_at]
  rfl

end Cert.ReferenceIdeal.RefG

end
-- ==== Proof.PreRange.lean ====
/-
  What the precondition says of the edge array: every entry, read as a signed word, is at least 0 and below 1024,
  so as a natural number it is below 1024.
-/
import proofs.«426153_j27204322853087_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Cert.Pre_finite_inputs

/-- The scalar shape has one index. -/
instance : Subsingleton S_.Idx := ⟨fun _ _ => funext fun d => d.elim0⟩

/-- A 32-bit word that is at least 0 and below 1024 as a signed integer is below 1024 as a natural number. -/
theorem toNat_lt_of_signed (a : BitVec 32) (h0 : (0#32 : BitVec 32).toInt ≤ a.toInt) (h1 : a.toInt < (1024#32 : BitVec 32).toInt) :
    a.toNat < 1024 := by
  have e0 : (0#32 : BitVec 32).toInt = 0 := by decide
  have e1 : (1024#32 : BitVec 32).toInt = 1024 := by decide
  rw [e0] at h0
  rw [e1] at h1
  rw [BitVec.toInt_eq_toNat_cond] at h0 h1
  have hlt := a.isLt
  split at h0 <;> omega

theorem range_of_pre {F : FTy → Type} [FloatOps F] [Cert.Pre_finite_inputs.Facts]
    (x0 : FVec F S8x1024x256 .f32) (x1 : IVec S2x16384x8 32) (x2 : FVec F S256x256 .f32) (x3 : FVec F S256 .f32)
    (h : Cert.Pre_finite_inputs.fn (F := F) x0 x1 x2 x3 = fun _ => 1#1) :
    ∀ y, (x1 y).toNat < 1024 := by
  intro y
  have h0 := congrFun h ValueIdx.ix0
  dsimp only [fn, fn_part1] at h0
  change IntOp.andi _ _ = 1#1 at h0
  have h1 := (IntOp.andi_eq_one.1 h0).2
  have h2 := Host.reduce_andi_all _ _ _ _ _ h1 y
  change IntOp.andi (IntOp.cmpi .sge (x1 y) _) (IntOp.cmpi .slt (x1 y) _) = 1#1 at h2
  obtain ⟨hge, hlt⟩ := IntOp.andi_eq_one.1 h2
  rw [StableHlo.Predicate.bcast_scalar _ Facts.h_S_] at hge hlt
  exact toNat_lt_of_signed (x1 y) (IntOp.cmpi_sge.1 hge) (IntOp.cmpi_slt.1 hlt)

end Cert.PreRange

end
-- ==== Proof.lean ====
/-
  A graph-convolution layer over eight graphs of 1024 nodes: the kernel against its reference, over the extended reals.

  Both programs compute, for every graph b, node i and output feature o,
      y b i o = (∑ c, (∑ j, Â b i j · x b j c) · W o c) + bias o,      Â = D^(-1/2) (A + I) D^(-1/2),
  where A b i j = 1 exactly when graph b has an edge from i to j, D is the diagonal of the row sums of A + I, and
  D^(-1/2) is taken as `deg > 0 ? rsqrt deg : 0` (`GraphConv.G`, Proof/Spec.lean).

  The kernel handles one graph per grid point. It counts the edges from i to j as a contraction of two one-hot
  matrices over the edges, sixteen chunks of 1024 edges accumulated in a loop (Proof/KRun.lean reads the loop;
  Proof/KPay.lean the arithmetic; Proof/KBlock.lean joins them: the count is positive exactly where an edge exists),
  and its eight output blocks tile the result (Proof/KValue.lean).
  The reference works on all 8192 nodes at once: it offsets graph b's node numbers by 1024·b, scatters 1 into an
  8192 × 8192 matrix at every (source, destination) pair and adds the identity. Under the precondition that every
  node number is below 1024 (Proof/PreRange.lean) that matrix is block diagonal with the graphs' adjacencies on the
  diagonal (Proof/RefAdj.lean), so row sums, normalisation and aggregation over 8192 nodes reduce to the graph's own
  1024: a product with a zero factor is zero on the extended reals whatever the other factors, so no finiteness is
  used (Proof/RefValue.lean).
  The frames are the generated ones; the idealization rewrote nothing, so `preserves` is trivial.
-/
import proofs.«426153_j27204322853087_1_alg».proof.Defs
import proofs.«426153_j27204322853087_1_alg».proof.Proof.Gen.Kernel
import proofs.«426153_j27204322853087_1_alg».proof.Proof.Gen.Kernel.Skeleton
import proofs.«426153_j27204322853087_1_alg».proof.Proof.Gen.Kernel.Loops
import proofs.«426153_j27204322853087_1_alg».proof.Proof.Gen.Kernel.Launch
import proofs.«426153_j27204322853087_1_alg».proof.Proof.Gen.Kernel.Points
import proofs.«426153_j27204322853087_1_alg».proof.Proof.Gen.Kernel.Frame
import proofs.«426153_j27204322853087_1_alg».proof.Proof.Gen.KernelIdeal
import proofs.«426153_j27204322853087_1_alg».proof.Proof.Gen.KernelIdeal.Skeleton
import proofs.«426153_j27204322853087_1_alg».proof.Proof.Gen.KernelIdeal.Loops
import proofs.«426153_j27204322853087_1_alg».proof.Proof.Gen.KernelIdeal.Launch
import proofs.«426153_j27204322853087_1_alg».proof.Proof.Gen.KernelIdeal.Points
import proofs.«426153_j27204322853087_1_alg».proof.Proof.Gen.KernelIdeal.Frame
import proofs.«426153_j27204322853087_1_alg».proof.Proof.Gen.ReferenceIdeal
import proofs.«426153_j27204322853087_1_alg».proof.Proof.Gen.Pre_finite_inputs
import proofs.«426153_j27204322853087_1_alg».proof.Proof.Gen.KernelIdeal.Value
import proofs.«426153_j27204322853087_1_alg».proof.Proof.RefRun
import proofs.«426153_j27204322853087_1_alg».proof.Proof.RefRead
import proofs.«426153_j27204322853087_1_alg».proof.Proof.KValue
import proofs.«426153_j27204322853087_1_alg».proof.Proof.RefValue
import proofs.«426153_j27204322853087_1_alg».proof.Proof.PreRange
import Idealize.ShloMosaic.Adequacy
import Idealize.ShloMosaic.Init

noncomputable section

namespace Cert.Proof

open Idealize.ShloMosaic Idealize.ShloMosaic.TcCoe Idealize.SL.Sem GraphConv

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the layer `G` of the argument arrays in their result array. -/
theorem algebraic : Cert.algebraic_KernelIdeal_ReferenceIdeal := by
  intro m ρ m' ρ' hpre hagree
  refine ⟨fun c => G (Cert.KernelIdeal.KValue.xA m c) (Cert.KernelIdeal.KValue.eA m c) (Cert.KernelIdeal.KValue.wA m c)
    (Cert.KernelIdeal.KValue.bA m c), Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, (hagree c).1, (hagree c).2.1, (hagree c).2.2.1, (hagree c).2.2.2]
  exact Cert.ReferenceIdeal.RefG.val_eq_G _ _ _ _ (Cert.PreRange.range_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
